-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x128 : Shape := ⟨2, ![5000, 128]⟩
abbrev S200000x128 : Shape := ⟨2, ![200000, 128]⟩
abbrev S4000000x9 : Shape := ⟨2, ![4000000, 9]⟩
abbrev S200000 : Shape := ⟨1, ![200000]⟩
abbrev S128x9 : Shape := ⟨2, ![128, 9]⟩
abbrev S9 : Shape := ⟨1, ![9]⟩
abbrev S9x128 : Shape := ⟨2, ![9, 128]⟩
abbrev S128 : Shape := ⟨1, ![128]⟩
abbrev S4000000 : Shape := ⟨1, ![4000000]⟩
abbrev S_ : Shape := ⟨0, ![]⟩

class Facts : Prop where
  bcast_S_S5000x128 : S_.BroadcastsInDim S5000x128 (![] : Fin 0 → Fin S5000x128.rank)
  reducesTo_S5000x128_S_d0_1 : S5000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S4000000x9 : S_.BroadcastsInDim S4000000x9 (![] : Fin 0 → Fin S4000000x9.rank)
  reducesTo_S4000000x9_S_d0_1 : S4000000x9.ReducesTo [0, 1] S_
  bcast_S_S200000 : S_.BroadcastsInDim S200000 (![] : Fin 0 → Fin S200000.rank)
  reducesTo_S200000_S_d0 : S200000.ReducesTo [0] S_
  bcast_S_S128x9 : S_.BroadcastsInDim S128x9 (![] : Fin 0 → Fin S128x9.rank)
  reducesTo_S128x9_S_d0_1 : S128x9.ReducesTo [0, 1] S_
  bcast_S_S9 : S_.BroadcastsInDim S9 (![] : Fin 0 → Fin S9.rank)
  reducesTo_S9_S_d0 : S9.ReducesTo [0] S_
  bcast_S_S9x128 : S_.BroadcastsInDim S9x128 (![] : Fin 0 → Fin S9x128.rank)
  reducesTo_S9x128_S_d0_1 : S9x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S9x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S9x128 .f32 := Host.absf main_arg8
  let main_cst_14 : FVec F S_ .f32 := constant S_ .f32 0x7F800000#32
  let main_v40 : FVec F S9x128 .f32 := broadcastInDim S9x128 ![] bcast_S_S9x128 main_cst_14
  let main_v41 : IVec S9x128 1 := cmpf .olt main_v39 main_v40
  let main_c_15 : IVec S_ 1 := constantI S_ 1 1#1
  let main_v42 : IVec S_ 1 := (fun x v => Host.reduce IntOp.andi x v reducesTo_S9x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x9 .f32) (main_arg5 : FVec F S9 .f32) (main_arg6 : FVec F S9x128 .f32) (main_arg7 : FVec F S128 .f32) (main_arg8 : FVec F S9x128 .f32) (main_arg9 : FVec F S128 .f32) (main_v13 : IVec S_ 1) (main_v16 : IVec S200000 1) : IVec S_ 1 :=
  let main_c_5 : IVec S_ 1 := constantI S_ 1 1#1
  let main_v17 : IVec S_ 1 := (fun x v => Host.reduce IntOp.andi x v reducesTo_S200000_S_d0 h_S_) main_v16 main_c_5
  let main_v18 : IVec S_ 1 := andi main_v13 main_v17
  let main_v19 : FVec F S128x9 .f32 := Host.absf main_arg4
  let main_cst_6 : FVec F S_ .f32 := constant S_ .f32 0x7F800000#32
  let main_v20 : FVec F S128x9 .f32 := broadcastInDim S128x9 ![] bcast_S_S128x9 main_cst_6
  let main_v21 : IVec S128x9 1 := cmpf .olt main_v19 main_v20
  let main_c_7 : IVec S_ 1 := constantI S_ 1 1#1
  let main_v22 : IVec S_ 1 := (fun x v => Host.reduce IntOp.andi x v reducesTo_S128x9_S_d0_1 h_S_) main_v21 main_c_7
  let main_v23 : IVec S_ 1 := andi main_v18 main_v22
  let main_v24 : FVec F S9 .f32 := Host.absf main_arg5
  let main_cst_8 : FVec F S_ .f32 := constant S_ .f32 0x7F800000#32
  let main_v25 : FVec F S9 .f32 := broadcastInDim S9 ![] bcast_S_S9 main_cst_8
  let main_v26 : IVec S9 1 := cmpf .olt main_v24 main_v25
  let main_c_9 : IVec S_ 1 := constantI S_ 1 1#1
  let main_v27 : IVec S_ 1 := (fun x v => Host.reduce IntOp.andi x v reducesTo_S9_S_d0 h_S_) main_v26 main_c_9
  let main_v28 : IVec S_ 1 := andi main_v23 main_v27
  let main_v29 : FVec F S9x128 .f32 := Host.absf main_arg6
  let main_cst_10 : FVec F S_ .f32 := constant S_ .f32 0x7F800000#32
  let main_v30 : FVec F S9x128 .f32 := broadcastInDim S9x128 ![] bcast_S_S9x128 main_cst_10
  let main_v31 : IVec S9x128 1 := cmpf .olt main_v29 main_v30
  let main_c_11 : IVec S_ 1 := constantI S_ 1 1#1
  let main_v32 : IVec S_ 1 := (fun x v => Host.reduce IntOp.andi x v reducesTo_S9x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S5000x128 .f32) (main_arg1 : FVec F S200000x128 .f32) (main_arg2 : FVec F S4000000x9 .f32) (main_arg3 : FVec F S200000 .f32) (main_arg4 : FVec F S128x9 .f32) (main_arg5 : FVec F S9 .f32) (main_arg6 : FVec F S9x128 .f32) (main_arg7 : FVec F S128 .f32) (main_arg8 : FVec F S9x128 .f32) (main_arg9 : FVec F S128 .f32) (main_arg10 : IVec S200000 32) (main_arg11 : IVec S4000000 32) (main_arg12 : IVec S4000000 32) (main_arg13 : IVec S4000000 32) : IVec S_ 1 :=
  let main_v0 : FVec F S5000x128 .f32 := Host.absf main_arg0
  let main_cst : FVec F S_ .f32 := constant S_ .f32 0x7F800000#32
  let main_v1 : FVec F S5000x128 .f32 := broadcastInDim S5000x128 ![] bcast_S_S5000x128 main_cst
  let main_v2 : IVec S5000x128 1 := cmpf .olt main_v0 main_v1
  let main_c : IVec S_ 1 := constantI S_ 1 1#1
  let main_v3 : IVec S_ 1 := (fun x v => Host.reduce IntOp.andi x v reducesTo_S5000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S4000000x9 .f32 := Host.absf main_arg2
  let main_cst_2 : FVec F S_ .f32 := constant S_ .f32 0x7F800000#32
  let main_v10 : FVec F S4000000x9 .f32 := broadcastInDim S4000000x9 ![] bcast_S_S4000000x9 main_cst_2
  let main_v11 : IVec S4000000x9 1 := cmpf .olt main_v9 main_v10
  let main_c_3 : IVec S_ 1 := constantI S_ 1 1#1
  let main_v12 : IVec S_ 1 := (fun x v => Host.reduce IntOp.andi x v reducesTo_S4000000x9_S_d0_1 h_S_) main_v11 main_c_3
  let main_v13 : IVec S_ 1 := andi main_v8 main_v12
  let main_v14 : FVec F S200000 .f32 := Host.absf main_arg3
  let main_cst_4 : FVec F S_ .f32 := constant S_ .f32 0x7F800000#32
  let main_v15 : FVec F S200000 .f32 := broadcastInDim S200000 ![] bcast_S_S200000 main_cst_4
  let main_v16 : IVec S200000 1 := cmpf .olt main_v14 main_v15
  fn_part1 (F := F) main_arg4 main_arg5 main_arg6 main_arg7 main_arg8 main_arg9 main_v13 main_v16
-- ==== Kernel.lean ====
abbrev S5000x128 : Shape := ⟨2, ![5000, 128]⟩
abbrev S200000x128 : Shape := ⟨2, ![200000, 128]⟩
abbrev S4000000x9 : Shape := ⟨2, ![4000000, 9]⟩
abbrev S200000 : Shape := ⟨1, ![200000]⟩
abbrev S128x9 : Shape := ⟨2, ![128, 9]⟩
abbrev S9 : Shape := ⟨1, ![9]⟩
abbrev S9x128 : Shape := ⟨2, ![9, 128]⟩
abbrev S128 : Shape := ⟨1, ![128]⟩
abbrev S4000000 : Shape := ⟨1, ![4000000]⟩
abbrev S5000x9 : Shape := ⟨2, ![5000, 9]⟩
abbrev S1x9 : Shape := ⟨2, ![1, 9]⟩
abbrev S_ : Shape := ⟨0, ![]⟩
abbrev S4000000x1 : Shape := ⟨2, ![4000000, 1]⟩
abbrev S8000x9 : Shape := ⟨2, ![8000, 9]⟩
abbrev S200000x9 : Shape := ⟨2, ![200000, 9]⟩
abbrev S8000x128 : Shape := ⟨2, ![8000, 128]⟩
abbrev S1x128 : Shape := ⟨2, ![1, 128]⟩

abbrev nBuf : Space → Nat
  | .hbm => 39
  | .vmem => 20
  | .smem => 0
  | _ => 0

abbrev bufTy : (tb : Table) → Fin (tcTables nBuf tb) → BufTy
  | .hbm, ⟨0, _⟩ => ⟨S5000x128, .f32⟩
  | .hbm, ⟨1, _⟩ => ⟨S200000x128, .f32⟩
  | .hbm, ⟨2, _⟩ => ⟨S4000000x9, .f32⟩
  | .hbm, ⟨3, _⟩ => ⟨S200000, .f32⟩
  | .hbm, ⟨4, _⟩ => ⟨S128x9, .f32⟩
  | .hbm, ⟨5, _⟩ => ⟨S9, .f32⟩
  | .hbm, ⟨6, _⟩ => ⟨S9x128, .f32⟩
  | .hbm, ⟨7, _⟩ => ⟨S128, .f32⟩
  | .hbm, ⟨8, _⟩ => ⟨S9x128, .f32⟩
  | .hbm, ⟨9, _⟩ => ⟨S128, .f32⟩
  | .hbm, ⟨10, _⟩ => ⟨S200000, .i32⟩
  | .hbm, ⟨11, _⟩ => ⟨S4000000, .i32⟩
  | .hbm, ⟨12, _⟩ => ⟨S4000000, .i32⟩
  | .hbm, ⟨13, _⟩ => ⟨S4000000, .i32⟩
  | .hbm, ⟨14, _⟩ => ⟨S5000x9, .f32⟩
  | .hbm, ⟨15, _⟩ => ⟨S_, .i32⟩
  | .hbm, ⟨16, _⟩ => ⟨S4000000, .i32⟩
  | .hbm, ⟨17, _⟩ => ⟨S4000000, .i1⟩
  | .hbm, ⟨18, _⟩ => ⟨S_, .i32⟩
  | .hbm, ⟨19, _⟩ => ⟨S4000000, .i32⟩
  | .hbm, ⟨20, _⟩ => ⟨S4000000, .i32⟩
  | .hbm, ⟨21, _⟩ => ⟨S4000000, .i32⟩
  | .hbm, ⟨22, _⟩ => ⟨S4000000x1, .i32⟩
  | .hbm, ⟨23, _⟩ => ⟨S4000000, .i32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S4000000x9, .f32⟩
  | .hbm, ⟨33, _⟩ => ⟨S4000000x9, .f32⟩
  | .hbm, ⟨34, _⟩ => ⟨S_, .f32⟩
  | .hbm, ⟨35, _⟩ => ⟨S200000x9, .f32⟩
  | .hbm, ⟨36, _⟩ => ⟨S4000000x1, .i32⟩
  | .hbm, ⟨37, _⟩ => ⟨S200000x9, .f32⟩
  | .hbm, ⟨38, _⟩ => ⟨S200000x128, .f32⟩
  | .local _ .vmem, ⟨0, _⟩ => ⟨S5000x128, .f32⟩
  | .local _ .vmem, ⟨1, _⟩ => ⟨S128x9, .f32⟩
  | .local _ .vmem, ⟨2, _⟩ => ⟨S9, .f32⟩
  | .local _ .vmem, ⟨3, _⟩ => ⟨S5000x9, .f32⟩
  | .local _ .vmem, ⟨4, _⟩ => ⟨S8000x9, .f32⟩
  | .local _ .vmem, ⟨5, _⟩ => ⟨S8000x9, .f32⟩
  | .local _ .vmem, ⟨6, _⟩ => ⟨S8000x9, .f32⟩
  | .local _ .vmem, ⟨7, _⟩ => ⟨S8000x9, .f32⟩
  | .local _ .vmem, ⟨8, _⟩ => ⟨S8000x9, .f32⟩
  | .local _ .vmem, ⟨9, _⟩ => ⟨S8000x9, .f32⟩
  | .local _ .vmem, ⟨10, _⟩ => ⟨S8000x9, .f32⟩
  | .local _ .vmem, ⟨11, _⟩ => ⟨S8000x9, .f32⟩
  | .local _ .vmem, ⟨12, _⟩ => ⟨S8000x128, .f32⟩
  | .local _ .vmem, ⟨13, _⟩ => ⟨S8000x128, .f32⟩
  | .local _ .vmem, ⟨14, _⟩ => ⟨S9x128, .f32⟩
  | .local _ .vmem, ⟨15, _⟩ => ⟨S128, .f32⟩
  | .local _ .vmem, ⟨16, _⟩ => ⟨S9x128, .f32⟩
  | .local _ .vmem, ⟨17, _⟩ => ⟨S128, .f32⟩
  | .local _ .vmem, ⟨18, _⟩ => ⟨S8000x128, .f32⟩
  | .local _ .vmem, ⟨19, _⟩ => ⟨S8000x128, .f32⟩
  | _, _ => ⟨S5000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S5000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5000x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x9 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x9 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x9 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x9 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S9x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S9x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x9_S128x9_0_0 : ∀ a, (![0, 0] : Fin 2 → Nat) a + S128x9.size a ≤ S128x9.size a
  h_S128x9 : 0 < S128x9.numel
  inb_S9_S9_0 : ∀ a, (![0] : Fin 1 → Nat) a + S9.size a ≤ S9.size a
  h_S9 : 0 < S9.numel
  shapeCasts_S9_S1x9 : S9.ShapeCasts S1x9
  broadcasts_S1x9_S5000x9 : S1x9.Broadcasts S5000x9
  inb_S5000x9_S5000x9_0_0 : ∀ a, (![0, 0] : Fin 2 → Nat) a + S5000x9.size a ≤ S5000x9.size a
  h_S5000x9 : 0 < S5000x9.numel
  bcast_S_S4000000 : S_.BroadcastsInDim S4000000 (![] : Fin 0 → Fin S4000000.rank)
  bcast_S4000000_S4000000x1_0 : S4000000.BroadcastsInDim S4000000x1 (![0] : Fin 1 → Fin S4000000x1.rank)
  inb_S8000x9_S8000x9_0_0 : ∀ a, (![0, 0] : Fin 2 → Nat) a + S8000x9.size a ≤ S8000x9.size a
  h_S8000x9 : 0 < S8000x9.numel
  shapeCasts_S8000x9_S8000x9 : S8000x9.ShapeCasts S8000x9
  bcast_S_S200000x9 : S_.BroadcastsInDim S200000x9 (![] : Fin 0 → Fin S200000x9.rank)
  inb_S9x128_S9x128_0_0 : ∀ a, (![0, 0] : Fin 2 → Nat) a + S9x128.size a ≤ S9x128.size a
  h_S9x128 : 0 < S9x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  dot_S5000x128_S128x9_S5000x9_1_0_0_1_n_n_wf : DotDims.WF S5000x128 S128x9 S5000x9 [1] [0] [0] [1] [] []
  gather_S200000_S4000000x1_S4000000_n_0_n_n_0_1_1_wf : GatherDims.WF S200000 S4000000x1 S4000000 [] [0] [] [0] [] 1 ![1]
  gather_S5000x9_S4000000x1_S4000000x9_1_0_n_n_0_1_19_wf : GatherDims.WF S5000x9 S4000000x1 S4000000x9 [1] [0] [] [0] [] 1 ![1, 9]
  scatter_S200000x9_S4000000x1_S4000000x9_1_0_0_1_wf : ScatterDims.WF S200000x9 S4000000x1 S4000000x9 [1] [0] [0] 1
  dot_S8000x9_S9x128_S8000x128_1_0_0_1_n_n_wf : DotDims.WF S8000x9 S9x128 S8000x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S5000x128.size a
  hwx0_0 : ∀ i : grid0.Coords, EltTy.bits .f32 = 32 ∨ (Rect.block (s := S5000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x9.size a ≤ S128x9.size a
  hwx0_1 : ∀ i : grid0.Coords, EltTy.bits .f32 = 32 ∨ (Rect.block (s := S128x9) S128x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9.size a ≤ S9.size a
  hwx0_2 : ∀ i : grid0.Coords, EltTy.bits .f32 = 32 ∨ (Rect.block (s := S9) S9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5000x9.size a ≤ S5000x9.size a
  hwx0_3 : ∀ i : grid0.Coords, EltTy.bits .f32 = 32 ∨ (Rect.block (s := S5000x9) S5000x9.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x9.size a ≤ S4000000x9.size a
  hwx1_0 : ∀ i : grid1.Coords, EltTy.bits .f32 = 32 ∨ (Rect.block (s := S4000000x9) S8000x9.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x9.size a ≤ S4000000x9.size a
  hwx1_1 : ∀ i : grid1.Coords, EltTy.bits .f32 = 32 ∨ (Rect.block (s := S4000000x9) S8000x9.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x9.size a ≤ S4000000x9.size a
  hwx1_2 : ∀ i : grid1.Coords, EltTy.bits .f32 = 32 ∨ (Rect.block (s := S4000000x9) S8000x9.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x9.size a ≤ S200000x9.size a
  hwx2_0 : ∀ i : grid2.Coords, EltTy.bits .f32 = 32 ∨ (Rect.block (s := S200000x9) S8000x9.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S200000x128.size a
  hwx2_1 : ∀ i : grid2.Coords, EltTy.bits .f32 = 32 ∨ (Rect.block (s := S200000x128) S8000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S9x128.size a ≤ S9x128.size a
  hwx2_2 : ∀ i : grid2.Coords, EltTy.bits .f32 = 32 ∨ (Rect.block (s := S9x128) S9x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S9x128.size a ≤ S9x128.size a
  hwx2_4 : ∀ i : grid2.Coords, EltTy.bits .f32 = 32 ∨ (Rect.block (s := S9x128) S9x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8000x128.size a ≤ S200000x128.size a
  hwx2_6 : ∀ i : grid2.Coords, EltTy.bits .f32 = 32 ∨ (Rect.block (s := S200000x128) S8000x128.size (cc2_transform_6 i) (hinb2_6 i)).WholeWords (EltTy.packing .f32)

variable [Facts₀]

def dot_S5000x128_S128x9_S5000x9_1_0_0_1_n_n : DotDims S5000x128 S128x9 S5000x9 where
  lhsContracting := [1]
  rhsContracting := [0]
  lhsNonContracting := [0]
  rhsNonContracting := [1]
  lhsBatch := []
  rhsBatch := []
  wf := dot_S5000x128_S128x9_S5000x9_1_0_0_1_n_n_wf
def gather_S200000_S4000000x1_S4000000_n_0_n_n_0_1_1 : GatherDims S200000 S4000000x1 S4000000 where
  offsetDims := []
  collapsedSliceDims := [0]
  operandBatchingDims := []
  startIndicesBatchingDims := []
  startIndexMap := [0]
  indexVectorDim := 1
  sliceSizes := ![1]
  wf := gather_S200000_S4000000x1_S4000000_n_0_n_n_0_1_1_wf
def gather_S5000x9_S4000000x1_S4000000x9_1_0_n_n_0_1_19 : GatherDims S5000x9 S4000000x1 S4000000x9 where
  offsetDims := [1]
  collapsedSliceDims := [0]
  operandBatchingDims := []
  startIndicesBatchingDims := []
  startIndexMap := [0]
  indexVectorDim := 1
  sliceSizes := ![1, 9]
  wf := gather_S5000x9_S4000000x1_S4000000x9_1_0_n_n_0_1_19_wf
def scatter_S200000x9_S4000000x1_S4000000x9_1_0_0_1 : ScatterDims S200000x9 S4000000x1 S4000000x9 where
  updateWindowDims := [1]
  insertedWindowDims := [0]
  scatterDimsToOperandDims := [0]
  indexVectorDim := 1
  wf := scatter_S200000x9_S4000000x1_S4000000x9_1_0_0_1_wf
def dot_S8000x9_S9x128_S8000x128_1_0_0_1_n_n : DotDims S8000x9 S9x128 S8000x128 where
  lhsContracting := [1]
  rhsContracting := [0]
  lhsNonContracting := [0]
  rhsNonContracting := [1]
  lhsBatch := []
  rhsBatch := []
  wf := dot_S8000x9_S9x128_S8000x128_1_0_0_1_n_n_wf

abbrev win0_0 : Pipeline.Window sig grid0 :=
  Pipeline.Window.ofSpec (Memref.whole main_arg0) S5000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S9.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x9.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8000x9.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S8000x9.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S8000x9.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S8000x9.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S9x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S9x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v19) S8000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S5000x128 : Shape := ⟨2, ![5000, 128]⟩
abbrev S200000x128 : Shape := ⟨2, ![200000, 128]⟩
abbrev S4000000x9 : Shape := ⟨2, ![4000000, 9]⟩
abbrev S200000 : Shape := ⟨1, ![200000]⟩
abbrev S128x9 : Shape := ⟨2, ![128, 9]⟩
abbrev S9 : Shape := ⟨1, ![9]⟩
abbrev S9x128 : Shape := ⟨2, ![9, 128]⟩
abbrev S128 : Shape := ⟨1, ![128]⟩
abbrev S4000000 : Shape := ⟨1, ![4000000]⟩
abbrev S5000x9 : Shape := ⟨2, ![5000, 9]⟩
abbrev S1x9 : Shape := ⟨2, ![1, 9]⟩
abbrev S_ : Shape := ⟨0, ![]⟩
abbrev S4000000x1 : Shape := ⟨2, ![4000000, 1]⟩
abbrev S200000x9 : Shape := ⟨2, ![200000, 9]⟩
abbrev S1x128 : Shape := ⟨2, ![1, 128]⟩

abbrev nBuf : Space → Nat
  | .hbm => 98
  | .vmem => 0
  | .smem => 0
  | _ => 0

abbrev bufTy : (tb : Table) → Fin (tcTables nBuf tb) → BufTy
  | .hbm, ⟨0, _⟩ => ⟨S5000x128, .f32⟩
  | .hbm, ⟨1, _⟩ => ⟨S200000x128, .f32⟩
  | .hbm, ⟨2, _⟩ => ⟨S4000000x9, .f32⟩
  | .hbm, ⟨3, _⟩ => ⟨S200000, .f32⟩
  | .hbm, ⟨4, _⟩ => ⟨S128x9, .f32⟩
  | .hbm, ⟨5, _⟩ => ⟨S9, .f32⟩
  | .hbm, ⟨6, _⟩ => ⟨S9x128, .f32⟩
  | .hbm, ⟨7, _⟩ => ⟨S128, .f32⟩
  | .hbm, ⟨8, _⟩ => ⟨S9x128, .f32⟩
  | .hbm, ⟨9, _⟩ => ⟨S128, .f32⟩
  | .hbm, ⟨10, _⟩ => ⟨S200000, .i32⟩
  | .hbm, ⟨11, _⟩ => ⟨S4000000, .i32⟩
  | .hbm, ⟨12, _⟩ => ⟨S4000000, .i32⟩
  | .hbm, ⟨13, _⟩ => ⟨S4000000, .i32⟩
  | .hbm, ⟨14, _⟩ => ⟨S5000x9, .f32⟩
  | .hbm, ⟨15, _⟩ => ⟨S1x9, .f32⟩
  | .hbm, ⟨16, _⟩ => ⟨S5000x9, .f32⟩
  | .hbm, ⟨17, _⟩ => ⟨S5000x9, .f32⟩
  | .hbm, ⟨18, _⟩ => ⟨S5000x9, .f32⟩
  | .hbm, ⟨19, _⟩ => ⟨S5000x9, .f32⟩
  | .hbm, ⟨20, _⟩ => ⟨S_, .f32⟩
  | .hbm, ⟨21, _⟩ => ⟨S5000x9, .f32⟩
  | .hbm, ⟨22, _⟩ => ⟨S5000x9, .f32⟩
  | .hbm, ⟨23, _⟩ => ⟨S_, .f32⟩
  | .hbm, ⟨24, _⟩ => ⟨S5000x9, .f32⟩
  | .hbm, ⟨25, _⟩ => ⟨S5000x9, .f32⟩
  | .hbm, ⟨26, _⟩ => ⟨S_, .i32⟩
  | .hbm, ⟨27, _⟩ => ⟨S4000000, .i32⟩
  | .hbm, ⟨28, _⟩ => ⟨S4000000, .i1⟩
  | .hbm, ⟨29, _⟩ => ⟨S_, .i32⟩
  | .hbm, ⟨30, _⟩ => ⟨S4000000, .i32⟩
  | .hbm, ⟨31, _⟩ => ⟨S4000000, .i32⟩
  | .hbm, ⟨32, _⟩ => ⟨S4000000, .i32⟩
  | .hbm, ⟨33, _⟩ => ⟨S4000000x1, .i32⟩
  | .hbm, ⟨34, _⟩ => ⟨S4000000, .i32⟩
  | .hbm, ⟨35, _⟩ => ⟨S_, .i32⟩
  | .hbm, ⟨36, _⟩ => ⟨S4000000, .i32⟩
  | .hbm, ⟨37, _⟩ => ⟨S4000000, .i1⟩
  | .hbm, ⟨38, _⟩ => ⟨S_, .i32⟩
  | .hbm, ⟨39, _⟩ => ⟨S4000000, .i32⟩
  | .hbm, ⟨40, _⟩ => ⟨S4000000, .i32⟩
  | .hbm, ⟨41, _⟩ => ⟨S4000000, .i32⟩
  | .hbm, ⟨42, _⟩ => ⟨S4000000x1, .i32⟩
  | .hbm, ⟨43, _⟩ => ⟨S4000000x9, .f32⟩
  | .hbm, ⟨44, _⟩ => ⟨S4000000x9, .f32⟩
  | .hbm, ⟨45, _⟩ => ⟨S_, .i32⟩
  | .hbm, ⟨46, _⟩ => ⟨S4000000, .i32⟩
  | .hbm, ⟨47, _⟩ => ⟨S4000000, .i1⟩
  | .hbm, ⟨48, _⟩ => ⟨S_, .i32⟩
  | .hbm, ⟨49, _⟩ => ⟨S4000000, .i32⟩
  | .hbm, ⟨50, _⟩ => ⟨S4000000, .i32⟩
  | .hbm, ⟨51, _⟩ => ⟨S4000000, .i32⟩
  | .hbm, ⟨52, _⟩ => ⟨S4000000x1, .i32⟩
  | .hbm, ⟨53, _⟩ => ⟨S4000000, .f32⟩
  | .hbm, ⟨54, _⟩ => ⟨S_, .i32⟩
  | .hbm, ⟨55, _⟩ => ⟨S4000000, .i32⟩
  | .hbm, ⟨56, _⟩ => ⟨S4000000, .i1⟩
  | .hbm, ⟨57, _⟩ => ⟨S_, .i32⟩
  | .hbm, ⟨58, _⟩ => ⟨S4000000, .i32⟩
  | .hbm, ⟨59, _⟩ => ⟨S4000000, .i32⟩
  | .hbm, ⟨60, _⟩ => ⟨S4000000, .i32⟩
  | .hbm, ⟨61, _⟩ => ⟨S4000000x1, .i32⟩
  | .hbm, ⟨62, _⟩ => ⟨S4000000, .f32⟩
  | .hbm, ⟨63, _⟩ => ⟨S4000000, .f32⟩
  | .hbm, ⟨64, _⟩ => ⟨S4000000x1, .f32⟩
  | .hbm, ⟨65, _⟩ => ⟨S4000000x9, .f32⟩
  | .hbm, ⟨66, _⟩ => ⟨S4000000x9, .f32⟩
  | .hbm, ⟨67, _⟩ => ⟨S_, .f32⟩
  | .hbm, ⟨68, _⟩ => ⟨S200000x9, .f32⟩
  | .hbm, ⟨69, _⟩ => ⟨S4000000x1, .i32⟩
  | .hbm, ⟨70, _⟩ => ⟨S200000x9, .f32⟩
  | .hbm, ⟨71, _⟩ => ⟨S200000x128, .f32⟩
  | .hbm, ⟨72, _⟩ => ⟨S1x128, .f32⟩
  | .hbm, ⟨73, _⟩ => ⟨S200000x128, .f32⟩
  | .hbm, ⟨74, _⟩ => ⟨S200000x128, .f32⟩
  | .hbm, ⟨75, _⟩ => ⟨S200000x128, .f32⟩
  | .hbm, ⟨76, _⟩ => ⟨S200000x128, .f32⟩
  | .hbm, ⟨77, _⟩ => ⟨S_, .f32⟩
  | .hbm, ⟨78, _⟩ => ⟨S200000x128, .f32⟩
  | .hbm, ⟨79, _⟩ => ⟨S200000x128, .f32⟩
  | .hbm, ⟨80, _⟩ => ⟨S_, .f32⟩
  | .hbm, ⟨81, _⟩ => ⟨S200000x128, .f32⟩
  | .hbm, ⟨82, _⟩ => ⟨S200000x128, .f32⟩
  | .hbm, ⟨83, _⟩ => ⟨S200000x128, .f32⟩
  | .hbm, ⟨84, _⟩ => ⟨S200000x128, .f32⟩
  | .hbm, ⟨85, _⟩ => ⟨S1x128, .f32⟩
  | .hbm, ⟨86, _⟩ => ⟨S200000x128, .f32⟩
  | .hbm, ⟨87, _⟩ => ⟨S200000x128, .f32⟩
  | .hbm, ⟨88, _⟩ => ⟨S200000x128, .f32⟩
  | .hbm, ⟨89, _⟩ => ⟨S200000x128, .f32⟩
  | .hbm, ⟨90, _⟩ => ⟨S_, .f32⟩
  | .hbm, ⟨91, _⟩ => ⟨S200000x128, .f32⟩
  | .hbm, ⟨92, _⟩ => ⟨S200000x128, .f32⟩
  | .hbm, ⟨93, _⟩ => ⟨S_, .f32⟩
  | .hbm, ⟨94, _⟩ => ⟨S200000x128, .f32⟩
  | .hbm, ⟨95, _⟩ => ⟨S200000x128, .f32⟩
  | .hbm, ⟨96, _⟩ => ⟨S200000x128, .f32⟩
  | .hbm, ⟨97, _⟩ => ⟨S200000x128, .f32⟩
  | _, _ => ⟨S5000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_9 : Ref sig .tc := ⟨.hbm, 90, rfl⟩
abbrev main_v57 : Ref sig .tc := ⟨.hbm, 91, rfl⟩
abbrev main_v58 : Ref sig .tc := ⟨.hbm, 92, rfl⟩
abbrev main_cst_10 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩

abbrev nD : Nat := 1
abbrev τ : Topo := Topo.v7x

variable {F : FTy → Type} [FloatOps F]

class Facts₀ : Prop where
  bcast_S9_S1x9_1 : S9.BroadcastsInDim S1x9 (![1] : Fin 1 → Fin S1x9.rank)
  bcast_S1x9_S5000x9_0_1 : S1x9.BroadcastsInDim S5000x9 (![0, 1] : Fin 2 → Fin S5000x9.rank)
  bcast_S_S5000x9 : S_.BroadcastsInDim S5000x9 (![] : Fin 0 → Fin S5000x9.rank)
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000x1_S4000000x9_0_1 : S4000000x1.BroadcastsInDim S4000000x9 (![0, 1] : Fin 2 → Fin S4000000x9.rank)
  bcast_S_S200000x9 : S_.BroadcastsInDim S200000x9 (![] : Fin 0 → Fin S200000x9.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  dot_S5000x128_S128x9_S5000x9_1_0_0_1_n_n_wf : DotDims.WF S5000x128 S128x9 S5000x9 [1] [0] [0] [1] [] []
  gather_S200000_S4000000x1_S4000000_n_0_n_n_0_1_1_wf : GatherDims.WF S200000 S4000000x1 S4000000 [] [0] [] [0] [] 1 ![1]
  gather_S5000x9_S4000000x1_S4000000x9_1_0_n_n_0_1_19_wf : GatherDims.WF S5000x9 S4000000x1 S4000000x9 [1] [0] [] [0] [] 1 ![1, 9]
  scatter_S200000x9_S4000000x1_S4000000x9_1_0_0_1_wf : ScatterDims.WF S200000x9 S4000000x1 S4000000x9 [1] [0] [0] 1
  dot_S200000x9_S9x128_S200000x128_1_0_0_1_n_n_wf : DotDims.WF S200000x9 S9x128 S200000x128 [1] [0] [0] [1] [] []

variable [Facts₀]

def dot_S5000x128_S128x9_S5000x9_1_0_0_1_n_n : DotDims S5000x128 S128x9 S5000x9 where
  lhsContracting := [1]
  rhsContracting := [0]
  lhsNonContracting := [0]
  rhsNonContracting := [1]
  lhsBatch := []
  rhsBatch := []
  wf := dot_S5000x128_S128x9_S5000x9_1_0_0_1_n_n_wf
def gather_S200000_S4000000x1_S4000000_n_0_n_n_0_1_1 : GatherDims S200000 S4000000x1 S4000000 where
  offsetDims := []
  collapsedSliceDims := [0]
  operandBatchingDims := []
  startIndicesBatchingDims := []
  startIndexMap := [0]
  indexVectorDim := 1
  sliceSizes := ![1]
  wf := gather_S200000_S4000000x1_S4000000_n_0_n_n_0_1_1_wf
def gather_S5000x9_S4000000x1_S4000000x9_1_0_n_n_0_1_19 : GatherDims S5000x9 S4000000x1 S4000000x9 where
  offsetDims := [1]
  collapsedSliceDims := [0]
  operandBatchingDims := []
  startIndicesBatchingDims := []
  startIndexMap := [0]
  indexVectorDim := 1
  sliceSizes := ![1, 9]
  wf := gather_S5000x9_S4000000x1_S4000000x9_1_0_n_n_0_1_19_wf
def scatter_S200000x9_S4000000x1_S4000000x9_1_0_0_1 : ScatterDims S200000x9 S4000000x1 S4000000x9 where
  updateWindowDims := [1]
  insertedWindowDims := [0]
  scatterDimsToOperandDims := [0]
  indexVectorDim := 1
  wf := scatter_S200000x9_S4000000x1_S4000000x9_1_0_0_1_wf
def dot_S200000x9_S9x128_S200000x128_1_0_0_1_n_n : DotDims S200000x9 S9x128 S200000x128 where
  lhsContracting := [1]
  rhsContracting := [0]
  lhsNonContracting := [0]
  rhsNonContracting := [1]
  lhsBatch := []
  rhsBatch := []
  wf := dot_S200000x9_S9x128_S200000x128_1_0_0_1_n_n_wf

class Facts : Prop extends Facts₀ where

variable [Facts]
-- ==== Proof.AtomsArray.lean ====
/- The first pallas_call has one grid point and every window is its whole array: the node features [5000, 128], the
   weight [128, 9], the bias [9] and the result [5000, 9]. So the array it leaves is the body's stored value — the
   logistic of (features · weight + bias) — of the three whole operand arrays. -/
import proofs.«411576_j74998718922917_2_alg».proof.Proof.Gen.KernelIdeal.Frame
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Atoms

open Cert.KernelIdeal Cert.KernelIdeal.Gen

variable {F : FTy → Type} [FloatOps F]
variable (V : (c : Dev nD) → (b : Ref sig .tc) → Buf (Elt F) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- At the one grid point every window's block offset is zero on every axis. -/
theorem off0 : (fun a => win0_0.index t0_0 a * main_arg0.ty.shape.size a) = fun _ => 0 := funext fun a => by fin_cases a <;> decide
theorem off1 : (fun a => win0_1.index t0_0 a * main_arg4.ty.shape.size a) = fun _ => 0 := funext fun a => by fin_cases a <;> decide
theorem off2 : (fun a => win0_2.index t0_0 a * main_arg5.ty.shape.size a) = fun _ => 0 := funext fun a => by fin_cases a <;> decide
theorem off3 : (fun a => win0_3.index t0_0 a * main_v0.ty.shape.size a) = fun _ => 0 := funext fun a => by fin_cases a <;> decide

/-- Each input block at the one point is the whole operand array. -/
theorem blk0 (c : Dev nD) : iblk0 V c 0 t0_0 = V c main_arg0 :=
  Memref.read_access_unit_zero (Elt F) main_arg0 off0 (fun a => by rw [congrFun off0 a]; simp) (V c main_arg0)
theorem blk1 (c : Dev nD) : iblk0 V c 1 t0_0 = V c main_arg4 :=
  Memref.read_access_unit_zero (Elt F) main_arg4 off1 (fun a => by rw [congrFun off1 a]; simp) (V c main_arg4)
theorem blk2 (c : Dev nD) : iblk0 V c 2 t0_0 = V c main_arg5 :=
  Memref.read_access_unit_zero (Elt F) main_arg5 off2 (fun a => by rw [congrFun off2 a]; simp) (V c main_arg5)

/-- What the one grid point writes back is the body's stored value of the three whole operands, read through the
    result's (whole) block. -/
theorem flushed_eq (c : Dev nD) (t : Fin cfg0.N) :
    (dat0 V c).flushed 3 t
      = ((cfg0.win 3).blk t).view.read (Elt F) (k0_pay1 (V c main_arg0) (V c main_arg4) (V c main_arg5)) := by
  obtain rfl : t = t0_0 := fin_N0 t
  show (cfg0.win 3).cut (grid0.coords t0_0) ((dat0 V c).after 3 t0_0) = _
  rw [after0_3]
  unfold out0_3
  rw [View.canon_unit_zero zero2]
  simp only [View.ld_unit_zero (S := S5000x128) zero2, View.ld_unit_zero (S := S128x9) zero2, View.ld_unit_zero (S := S9) zero1]
  rw [blk0, blk1, blk2]
  exact (Memref.read_access_unit_zero (Elt F) main_v0 off3 (fun a => by rw [congrFun off3 a]; simp)
    (k0_pay1 (V c main_arg0) (V c main_arg4) (V c main_arg5))).symm

/-- The one block covers the result array, which therefore ends at the stored value of the whole operands. -/
theorem array_eq (c : Dev nD) :
    (dat0 V c).arrAt 3 cfg0.N = k0_pay1 (V c main_arg0) (V c main_arg4) (V c main_arg5) :=
  (dat0 V c).arrAt_eq_of_cover 3 _ (fun t _ => flushed_eq V c t) fun i =>
    ⟨t0_0, flush0_3 t0_0, by
      show i ∈ ((View.whole main_v0).slice (win0_3.rect t0_0)).set
      rw [View.set_slice_whole, Rect.mem_set_unit]
      intro a
      have h0 : (i 0 : Nat) < 5000 := (i 0).isLt
      have h1 : (i 1 : Nat) < 9 := (i 1).isLt
      match a with
      | ⟨0, _⟩ =>
        show win0_3.index t0_0 0 * win0_3.size 0 ≤ (i 0 : Nat) ∧ (i 0 : Nat) < win0_3.index t0_0 0 * win0_3.size 0 + win0_3.xsize (grid0.coords t0_0) 0
        rw [show win0_3.index t0_0 0 * win0_3.size 0 = 0 from by decide +kernel, show win0_3.xsize (grid0.coords t0_0) 0 = 5000 from by decide +kernel]; omega
      | ⟨1, _⟩ =>
        show win0_3.index t0_0 1 * win0_3.size 1 ≤ (i 1 : Nat) ∧ (i 1 : Nat) < win0_3.index t0_0 1 * win0_3.size 1 + win0_3.xsize (grid0.coords t0_0) 1
        rw [show win0_3.index t0_0 1 * win0_3.size 1 = 0 from by decide +kernel, show win0_3.xsize (grid0.coords t0_0) 1 = 9 from by decide +kernel]; omega⟩

end Cert.KernelIdeal.Atoms

end
-- ==== Proof.AtomSpec.lean ====
/- The atom transform as one function of whole arrays, on the extended reals: for atom `a` and basis channel `c`,
     atoms(a, c) = logistic (Σ_d node[a, d] · W_atom[d, c] + b_atom[c]),   logistic x = 1 / (1 + e^(-x)). -/
import proofs.«411576_j74998718922917_2_alg».proof.KernelIdeal
import Idealize.ShloMosaic.PureOps.Ideal.Laws
import Idealize.ShloMosaic.Lib.ValueIdx

noncomputable section

namespace Cert.Atom

open Idealize.ShloMosaic Cert.KernelIdeal

/-- Entry (a, d) of the node features, for the output entry `i` = (a, c). -/
abbrev featAt (i : S5000x9.Idx) (k : Fin 128) : S5000x128.Idx := fun a => match a with
  | ⟨0, _⟩ => ⟨(i 0).val, (i 0).isLt⟩
  | ⟨1, _⟩ => ⟨k.val, k.isLt⟩
/-- Entry (d, c) of the weight. -/
abbrev weightAt (i : S5000x9.Idx) (k : Fin 128) : S128x9.Idx := fun a => match a with
  | ⟨0, _⟩ => ⟨k.val, k.isLt⟩
  | ⟨1, _⟩ => ⟨(i 1).val, (i 1).isLt⟩
/-- Entry c of the bias. -/
abbrev biasAt (i : S5000x9.Idx) : S9.Idx := fun a => match a with
  | ⟨0, _⟩ => ⟨(i 1).val, (i 1).isLt⟩

/-- The transformed atom features. -/
def transform (x : FVec Ideal S5000x128 .f32) (w : FVec Ideal S128x9 .f32) (b : FVec Ideal S9 .f32) : FVec Ideal S5000x9 .f32 := fun i =>
  Ideal.logistic ((∑ k : Fin 128, x (featAt i k) * w (weightAt i k)) + b (biasAt i))

end Cert.Atom

end
-- ==== Proof.AtomsEntry.lean ====
/- What the first pallas_call's body stores, read at an entry: the matrix unit's product of the node features with
   the weight (operands narrowed to bf16, which changes nothing on the extended reals; zero accumulator) is the
   128-term sum, the bias row is repeated down the 5000 rows, and the logistic is applied: the atom transform. -/
import proofs.«411576_j74998718922917_2_alg».proof.Proof.Gen.KernelIdeal.Skeleton
import proofs.«411576_j74998718922917_2_alg».proof.Proof.AtomSpec
import Idealize.ShloMosaic.Lib.Pipeline.Value
import Idealize.ShloMosaic.PureOps.Ideal.Laws
import Idealize.ShloMosaic.Lib.ValueIdx

set_option maxRecDepth 16384

noncomputable section

open Idealize.ShloMosaic Idealize.ShloMosaic.TcCoe

namespace Cert.KernelIdeal.AtomsEntry

open Cert.KernelIdeal Cert.KernelIdeal.Gen Cert.Atom

theorem lhs_0 (i : S5000x9.Idx) (q : dot_S5000x128_S128x9_S5000x9_1_0_0_1_n_n.contr.Idx) :
    (dot_S5000x128_S128x9_S5000x9_1_0_0_1_n_n.lhsIdx i q 0).val = (i 0).val := by
  unfold DotDims.lhsIdx
  rw [dif_neg (show ¬(0 : Fin S5000x128.rank) ∈ dot_S5000x128_S128x9_S5000x9_1_0_0_1_n_n.lhsBatch by decide), dif_pos (show (0 : Fin S5000x128.rank) ∈ dot_S5000x128_S128x9_S5000x9_1_0_0_1_n_n.lhsNonContracting by decide)]
  rfl
theorem lhs_1 (i : S5000x9.Idx) (q : dot_S5000x128_S128x9_S5000x9_1_0_0_1_n_n.contr.Idx) :
    (dot_S5000x128_S128x9_S5000x9_1_0_0_1_n_n.lhsIdx i q 1).val = (q ⟨0, by decide⟩).val :=
  dot_S5000x128_S128x9_S5000x9_1_0_0_1_n_n.lhsIdx_val_of_single rfl i q
theorem rhs_0 (i : S5000x9.Idx) (q : dot_S5000x128_S128x9_S5000x9_1_0_0_1_n_n.contr.Idx) :
    (dot_S5000x128_S128x9_S5000x9_1_0_0_1_n_n.rhsIdx i q 0).val = (q ⟨0, by decide⟩).val :=
  dot_S5000x128_S128x9_S5000x9_1_0_0_1_n_n.rhsIdx_val_of_single rfl i q
theorem rhs_1 (i : S5000x9.Idx) (q : dot_S5000x128_S128x9_S5000x9_1_0_0_1_n_n.contr.Idx) :
    (dot_S5000x128_S128x9_S5000x9_1_0_0_1_n_n.rhsIdx i q 1).val = (i 1).val := by
  unfold DotDims.rhsIdx
  rw [dif_neg (show ¬(1 : Fin S128x9.rank) ∈ dot_S5000x128_S128x9_S5000x9_1_0_0_1_n_n.rhsBatch by decide), dif_pos (show (1 : Fin S128x9.rank) ∈ dot_S5000x128_S128x9_S5000x9_1_0_0_1_n_n.rhsNonContracting by decide)]
  rfl

/-- The product into a zero accumulator at an entry: the 128-term sum over the feature axis. -/
theorem product_apply (x : FVec Ideal S5000x128 .f32) (w : FVec Ideal S128x9 .f32) (i : S5000x9.Idx) :
    matmul dot_S5000x128_S128x9_S5000x9_1_0_0_1_n_n none (truncf .bf16 x bitsLt_bf16_f32) (truncf .bf16 w bitsLt_bf16_f32) (constant S5000x9 .f32 0x00000000#32) i
      = ∑ k : Fin 128, x (featAt i k) * w (weightAt i k) := by
  simp only [matmul]
  rw [Ideal.matmul_constant_zero_apply, ← Equiv.sum_comp (ValueIdx.contrEquiv1 dot_S5000x128_S128x9_S5000x9_1_0_0_1_n_n 128 rfl rfl).symm]
  refine Finset.sum_congr rfl fun k _ => ?_
  have hk := ValueIdx.contrEquiv1_symm_val dot_S5000x128_S128x9_S5000x9_1_0_0_1_n_n 128 rfl rfl k
  have el : dot_S5000x128_S128x9_S5000x9_1_0_0_1_n_n.lhsIdx i ((ValueIdx.contrEquiv1 dot_S5000x128_S128x9_S5000x9_1_0_0_1_n_n 128 rfl rfl).symm k) = featAt i k := funext fun a => Fin.ext (by
    match a with
    | ⟨0, _⟩ => exact lhs_0 _ _
    | ⟨1, _⟩ => exact (lhs_1 _ _).trans hk)
  have er : dot_S5000x128_S128x9_S5000x9_1_0_0_1_n_n.rhsIdx i ((ValueIdx.contrEquiv1 dot_S5000x128_S128x9_S5000x9_1_0_0_1_n_n 128 rfl rfl).symm k) = weightAt i k := funext fun a => Fin.ext (by
    match a with
    | ⟨0, _⟩ => exact (rhs_0 _ _).trans hk
    | ⟨1, _⟩ => exact rhs_1 _ _)
  rw [el, er]
  rfl

/-- The [9] bias made a row and repeated down the 5000 rows reads its entry at the column. -/
theorem bias_apply (b : FVec Ideal S9 .f32) (i : S5000x9.Idx) :
    broadcastTo S5000x9 (shapeCast S1x9 b shapeCasts_S9_S1x9) broadcasts_S1x9_S5000x9 i = b (biasAt i) := by
  rw [broadcastTo_apply _ broadcasts_S1x9_S5000x9 i (fun a => match a with | ⟨0, _⟩ => ⟨0, Nat.one_pos⟩ | ⟨1, _⟩ => ⟨(i 1).val, (i 1).isLt⟩) (fun a => match a with
    | ⟨0, _⟩ => by show 0 = if (1 : Nat) = 1 then 0 else (i 0).val; rw [if_pos rfl]
    | ⟨1, _⟩ => by show (i 1).val = if (9 : Nat) = 1 then 0 else (i 1).val; rw [if_neg (by decide)])]
  refine (shapeCast_addUnit_apply ![9] b shapeCasts_S9_S1x9 _).trans (congrArg b (funext fun a => ?_))
  match a with
  | ⟨0, _⟩ => rfl

/-- The body's stored value is the atom transform of its three operands. -/
theorem stored_eq (x : FVec Ideal S5000x128 .f32) (w : FVec Ideal S128x9 .f32) (b : FVec Ideal S9 .f32) :
    k0_pay1 x w b = transform x w b := by
  funext i
  unfold transform
  rw [← product_apply x w i, ← bias_apply b i]
  rfl

end Cert.KernelIdeal.AtomsEntry

end
-- ==== Proof.BasisProduct.lean ====
/- The second pallas_call multiplies the triples' basis rows by the gathered atom rows, 8000 rows a grid point.
   Here: the array it leaves is the entrywise product of the two arrays it was entered with. Grid point `t` reads
   rows 8000·t … 8000·t + 7999 of both operands and writes the same rows of the result, so the 500 blocks tile
   the 4,000,000 rows and each block is the product read through the block's rectangle. -/
import proofs.«411576_j74998718922917_2_alg».proof.Proof.Gen.KernelIdeal.Frame
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Basis

open Cert.KernelIdeal Cert.KernelIdeal.Gen

variable {F : FTy → Type} [FloatOps F]
variable (V : (c : Dev nD) → (b : Ref sig .tc) → Buf (Elt F) ((c : Thread nD τ).loc b))

theorem zero2 : (![0, 0] : Fin 2 → Nat) = fun _ => 0 := funext fun a => by fin_cases a <;> rfl

/-- All three windows sit at block row `t`, block column 0, at grid point `t`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` of the entrywise product of the two operand arrays. -/
theorem flushed_eq (c : Dev nD) (t : Fin cfg1.N) :
    (dat1 V c).flushed 2 t
      = ((cfg1.win 2).blk t).view.read (Elt F) (mulf (V c main_arg2 : Vec F S4000000x9 .f32) (V c main_v14 : Vec F S4000000x9 .f32)) := by
  show (cfg1.win 2).cut (grid1.coords t) ((dat1 V c).after 2 t) = _
  rw [after1_2]
  unfold out1_2
  rw [View.canon_unit_zero zero2]
  simp only [View.ld_unit_zero (S := S8000x9) zero2]
  unfold k1_pay1
  simp only [shapeCast_self]
  obtain ⟨e0, e1, e2, e3, e4, e5⟩ := index_facts t
  funext j
  show FloatOps.mulf (V c main_arg2 (((cfg1.win 0).blk t).view.emb j)) (V c main_v14 (((cfg1.win 1).blk t).view.emb j))
      = FloatOps.mulf (V c main_arg2 (((cfg1.win 2).blk t).view.emb j)) (V c main_v14 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 9 + 1 * (j 1).val = win1_2.index t (1 : Fin 2) * 9 + 1 * (j 1).val; omega
  have h1 : ((cfg1.win 1).blk t).view.emb j = ((cfg1.win 2).blk t).view.emb j := by
    funext a; apply Fin.ext
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 9 + 1 * (j 1).val = win1_2.index t (1 : Fin 2) * 9 + 1 * (j 1).val; omega
  rw [h0, h1]

/-- An index lies in grid point `t`'s block of the result when each coordinate is in the block's range. -/
theorem mem_blk (t : Fin cfg1.N) (i : S4000000x9.Idx) :
    i ∈ ((cfg1.win 2).blk t).view.set ↔ ∀ a : Fin 2, win1_2.index t a * S8000x9.size a ≤ (i a).val ∧ (i a).val < win1_2.index t a * S8000x9.size a + S8000x9.size a := by
  show i ∈ ((View.whole main_v15).slice (win1_2.rect t)).set ↔ _
  rw [View.set_slice_whole, Rect.mem_set_unit]
  exact Iff.rfl

/-- Row `r` of the result is written by grid point `r / 8000`, so the blocks cover the array: after the region it
    holds the entrywise product of the arrays it was entered with. -/
theorem array_eq (c : Dev nD) :
    (dat1 V c).arrAt 2 cfg1.N = mulf (V c main_arg2 : Vec F S4000000x9 .f32) (V c main_v14 : Vec F S4000000x9 .f32) :=
  (dat1 V c).arrAt_eq_of_cover 2 _ (fun t _ => flushed_eq V c t) fun i => by
    have hi0 : (i 0).val < 4000000 := (i 0).isLt
    have hi1 : (i 1).val < 9 := (i 1).isLt
    have hN : cfg1.N = 500 := N_1
    have hlt : (i 0).val / 8000 < cfg1.N := by omega
    refine ⟨⟨(i 0).val / 8000, hlt⟩, flush1_2 _, ?_⟩
    rw [mem_blk]
    obtain ⟨-, -, -, -, e4, e5⟩ := index_facts ⟨(i 0).val / 8000, hlt⟩
    intro a
    match a with
    | ⟨0, _⟩ =>
      show win1_2.index ⟨(i 0).val / 8000, hlt⟩ (0 : Fin 2) * 8000 ≤ (i 0).val ∧ (i 0).val < win1_2.index ⟨(i 0).val / 8000, hlt⟩ (0 : Fin 2) * 8000 + 8000
      rw [e4]; show (i 0).val / 8000 * 8000 ≤ (i 0).val ∧ (i 0).val < (i 0).val / 8000 * 8000 + 8000; omega
    | ⟨1, _⟩ =>
      show win1_2.index ⟨(i 0).val / 8000, hlt⟩ (1 : Fin 2) * 9 ≤ (i 1).val ∧ (i 1).val < win1_2.index ⟨(i 0).val / 8000, hlt⟩ (1 : Fin 2) * 9 + 9
      rw [e5]; omega

end Cert.KernelIdeal.Basis

end
-- ==== Proof.BondSpec.lean ====
/- The bond update as one function of whole arrays, on the extended reals. For bond `e` and channel `j`, with
   `nb` the [200000, 9] array of summed triple terms:
     gate(e, j) = Σ_k nb[e, k] · W_gate[k, j] + b_gate[j],   sig(e, j) = Σ_k nb[e, k] · W_sig[k, j] + b_sig[j],
     update(e, j) = edge[e, j] + (gate · logistic gate) · logistic sig,
   where logistic x = 1 / (1 + e^(-x)) with its limits 0 and 1 at the infinities. -/
import proofs.«411576_j74998718922917_2_alg».proof.KernelIdeal
import Idealize.ShloMosaic.PureOps.Ideal.Laws
import Idealize.ShloMosaic.PureOps.IdealRules
import Idealize.ShloMosaic.Lib.ValueIdx

noncomputable section

namespace Cert.Bond

open Idealize.ShloMosaic Cert.KernelIdeal

/-- The f32 word of 1.0 is the real number one. -/
theorem one_f32 : Ideal.ofBits .f32 0x3F800000#32 = 1 := IdealRules.sign_bit.ideal_onePat .f32

/-- Entry (e, k) of the summed triple terms, for the output entry `i` = (e, j). -/
abbrev sumAt (i : S200000x128.Idx) (k : Fin 9) : S200000x9.Idx := fun a => match a with
  | ⟨0, _⟩ => ⟨(i 0).val, (i 0).isLt⟩
  | ⟨1, _⟩ => ⟨k.val, k.isLt⟩
/-- Entry (k, j) of a [9, 128] weight, for the output entry `i` = (e, j). -/
abbrev weightAt (i : S200000x128.Idx) (k : Fin 9) : S9x128.Idx := fun a => match a with
  | ⟨0, _⟩ => ⟨k.val, k.isLt⟩
  | ⟨1, _⟩ => ⟨(i 1).val, (i 1).isLt⟩
/-- Entry j of a [128] bias, for the output entry `i` = (e, j). -/
abbrev biasAt (i : S200000x128.Idx) : S128.Idx := fun a => match a with
  | ⟨0, _⟩ => ⟨(i 1).val, (i 1).isLt⟩

/-- One linear layer at an entry: Σ_k nb[e, k] · w[k, j] + b[j]. -/
def lin (nb : FVec Ideal S200000x9 .f32) (w : FVec Ideal S9x128 .f32) (b : FVec Ideal S128 .f32) (i : S200000x128.Idx) : Ideal .f32 :=
  (∑ k : Fin 9, nb (sumAt i k) * w (weightAt i k)) + b (biasAt i)

/-- The updated edge features. -/
def update (nb : FVec Ideal S200000x9 .f32) (ef : FVec Ideal S200000x128 .f32) (wg : FVec Ideal S9x128 .f32) (bg : FVec Ideal S128 .f32)
    (ws : FVec Ideal S9x128 .f32) (bs : FVec Ideal S128 .f32) : FVec Ideal S200000x128 .f32 := fun i =>
  ef i + lin nb wg bg i * Ideal.logistic (lin nb wg bg i) * Ideal.logistic (lin nb ws bs i)

end Cert.Bond

end
-- ==== Proof.BondBlock.lean ====
/- The third pallas_call computes the bond update 8000 bonds a grid point. Here: what its body stores, read at an
   entry of the block (two nine-term products with the [9, 128] weights, each plus its bias row, the first times its
   logistic, times the logistic of the second, added to the edge feature); each window's block as rows of its array;
   and, the 25 blocks tiling the 200000 rows, the array the region leaves as the bond update of the arrays it was
   entered with. -/
import proofs.«411576_j74998718922917_2_alg».proof.Proof.Gen.KernelIdeal.Frame
import Idealize.ShloMosaic.Lib.Pipeline.Value
import proofs.«411576_j74998718922917_2_alg».proof.Proof.BondSpec
import Idealize.ShloMosaic.PureOps.Ideal.Laws
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.BondBlock

open Cert.KernelIdeal Cert.KernelIdeal.Gen

/-! ## The block's product with a weight, entry by entry -/

theorem lhs_0 (i : S8000x128.Idx) (q : dot_S8000x9_S9x128_S8000x128_1_0_0_1_n_n.contr.Idx) :
    (dot_S8000x9_S9x128_S8000x128_1_0_0_1_n_n.lhsIdx i q 0).val = (i 0).val := by
  unfold DotDims.lhsIdx
  rw [dif_neg (show ¬(0 : Fin S8000x9.rank) ∈ dot_S8000x9_S9x128_S8000x128_1_0_0_1_n_n.lhsBatch by decide), dif_pos (show (0 : Fin S8000x9.rank) ∈ dot_S8000x9_S9x128_S8000x128_1_0_0_1_n_n.lhsNonContracting by decide)]
  rfl
theorem lhs_1 (i : S8000x128.Idx) (q : dot_S8000x9_S9x128_S8000x128_1_0_0_1_n_n.contr.Idx) :
    (dot_S8000x9_S9x128_S8000x128_1_0_0_1_n_n.lhsIdx i q 1).val = (q ⟨0, by decide⟩).val :=
  dot_S8000x9_S9x128_S8000x128_1_0_0_1_n_n.lhsIdx_val_of_single rfl i q
theorem rhs_0 (i : S8000x128.Idx) (q : dot_S8000x9_S9x128_S8000x128_1_0_0_1_n_n.contr.Idx) :
    (dot_S8000x9_S9x128_S8000x128_1_0_0_1_n_n.rhsIdx i q 0).val = (q ⟨0, by decide⟩).val :=
  dot_S8000x9_S9x128_S8000x128_1_0_0_1_n_n.rhsIdx_val_of_single rfl i q
theorem rhs_1 (i : S8000x128.Idx) (q : dot_S8000x9_S9x128_S8000x128_1_0_0_1_n_n.contr.Idx) :
    (dot_S8000x9_S9x128_S8000x128_1_0_0_1_n_n.rhsIdx i q 1).val = (i 1).val := by
  unfold DotDims.rhsIdx
  rw [dif_neg (show ¬(1 : Fin S9x128.rank) ∈ dot_S8000x9_S9x128_S8000x128_1_0_0_1_n_n.rhsBatch by decide), dif_pos (show (1 : Fin S9x128.rank) ∈ dot_S8000x9_S9x128_S8000x128_1_0_0_1_n_n.rhsNonContracting by decide)]
  rfl

/-- Entry (r, k) of the block of summed triple terms, for the block's output entry `j` = (r, c). -/
abbrev rowAt (j : S8000x128.Idx) (k : Fin 9) : S8000x9.Idx := fun a => match a with
  | ⟨0, _⟩ => ⟨(j 0).val, (j 0).isLt⟩
  | ⟨1, _⟩ => ⟨k.val, k.isLt⟩
/-- Entry (k, c) of a weight. -/
abbrev weightAt (j : S8000x128.Idx) (k : Fin 9) : S9x128.Idx := fun a => match a with
  | ⟨0, _⟩ => ⟨k.val, k.isLt⟩
  | ⟨1, _⟩ => ⟨(j 1).val, (j 1).isLt⟩
/-- Entry c of a bias. -/
abbrev biasAt (j : S8000x128.Idx) : S128.Idx := fun a => match a with
  | ⟨0, _⟩ => ⟨(j 1).val, (j 1).isLt⟩

/-- The matrix unit's product into a zero accumulator, its operands narrowed to bf16 (no change on the extended
    reals), at an entry: the nine-term sum over the basis channel. -/
theorem product_apply (x : FVec Ideal S8000x9 .f32) (w : FVec Ideal S9x128 .f32) (j : S8000x128.Idx) :
    matmul dot_S8000x9_S9x128_S8000x128_1_0_0_1_n_n none (truncf .bf16 x bitsLt_bf16_f32) (truncf .bf16 w bitsLt_bf16_f32) (constant S8000x128 .f32 0x00000000#32) j
      = ∑ k : Fin 9, x (rowAt j k) * w (weightAt j k) := by
  simp only [matmul]
  rw [Ideal.matmul_constant_zero_apply, ← Equiv.sum_comp (ValueIdx.contrEquiv1 dot_S8000x9_S9x128_S8000x128_1_0_0_1_n_n 9 rfl rfl).symm]
  refine Finset.sum_congr rfl fun k _ => ?_
  have hk := ValueIdx.contrEquiv1_symm_val dot_S8000x9_S9x128_S8000x128_1_0_0_1_n_n 9 rfl rfl k
  have el : dot_S8000x9_S9x128_S8000x128_1_0_0_1_n_n.lhsIdx j ((ValueIdx.contrEquiv1 dot_S8000x9_S9x128_S8000x128_1_0_0_1_n_n 9 rfl rfl).symm k) = rowAt j k := funext fun a => Fin.ext (by
    match a with
    | ⟨0, _⟩ => exact lhs_0 _ _
    | ⟨1, _⟩ => exact (lhs_1 _ _).trans hk)
  have er : dot_S8000x9_S9x128_S8000x128_1_0_0_1_n_n.rhsIdx j ((ValueIdx.contrEquiv1 dot_S8000x9_S9x128_S8000x128_1_0_0_1_n_n 9 rfl rfl).symm k) = weightAt j k := funext fun a => Fin.ext (by
    match a with
    | ⟨0, _⟩ => exact (rhs_0 _ _).trans hk
    | ⟨1, _⟩ => exact rhs_1 _ _)
  rw [el, er]
  rfl

/-- A [128] bias made a row and repeated down the 8000 rows reads its entry at the column. -/
theorem bias_apply (b : FVec Ideal S128 .f32) (j : S8000x128.Idx) :
    broadcastTo S8000x128 (shapeCast S1x128 b shapeCasts_S128_S1x128) broadcasts_S1x128_S8000x128 j = b (biasAt j) := by
  rw [broadcastTo_apply _ broadcasts_S1x128_S8000x128 j (fun a => match a with | ⟨0, _⟩ => ⟨0, Nat.one_pos⟩ | ⟨1, _⟩ => ⟨(j 1).val, (j 1).isLt⟩) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]
  refine (shapeCast_addUnit_apply ![128] b shapeCasts_S128_S1x128 _).trans (congrArg b (funext fun a => ?_))
  match a with
  | ⟨0, _⟩ => rfl

/-- One linear layer on a block at an entry: Σ_k x[r, k] · w[k, c] + b[c]. -/
def blockLin (x : FVec Ideal S8000x9 .f32) (w : FVec Ideal S9x128 .f32) (b : FVec Ideal S128 .f32) (j : S8000x128.Idx) : Ideal .f32 :=
  (∑ k : Fin 9, x (rowAt j k) * w (weightAt j k)) + b (biasAt j)

/-- The body's linear layer (product plus repeated bias) at an entry. -/
theorem layer_apply (x : FVec Ideal S8000x9 .f32) (w : FVec Ideal S9x128 .f32) (b : FVec Ideal S128 .f32) (j : S8000x128.Idx) :
    addf (matmul dot_S8000x9_S9x128_S8000x128_1_0_0_1_n_n none (truncf .bf16 (shapeCast S8000x9 x shapeCasts_S8000x9_S8000x9) bitsLt_bf16_f32) (truncf .bf16 w bitsLt_bf16_f32) (constant S8000x128 .f32 0x00000000#32))
        (broadcastTo S8000x128 (shapeCast S1x128 b shapeCasts_S128_S1x128) broadcasts_S1x128_S8000x128) j
      = blockLin x w b j := by
  rw [shapeCast_self]
  show _ + _ = _
  rw [product_apply, bias_apply]
  rfl

/-- What the body stores, at an entry of the block. -/
theorem stored_apply (x : FVec Ideal S8000x9 .f32) (wg ws : FVec Ideal S9x128 .f32) (bg bs : FVec Ideal S128 .f32) (ef : FVec Ideal S8000x128 .f32)
    (j : S8000x128.Idx) :
    k2_pay1 x wg ws bg bs ef j
      = ef j + blockLin x wg bg j * Ideal.logistic (blockLin x wg bg j) * Ideal.logistic (blockLin x ws bs j) := by
  rw [← layer_apply x wg bg j, ← layer_apply x ws bs j]
  rfl

end Cert.KernelIdeal.BondBlock

end
-- ==== Proof.BondArray.lean ====
/- The array the third pallas_call leaves. Grid point `t` reads rows 8000·t … 8000·t + 7999 of the summed triple
   terms and of the edge features, the two [9, 128] weights and the two [128] biases whole, and writes the same rows
   of the result; the 25 blocks tile the 200000 rows. So the result is the bond update of the arrays the region was
   entered with. -/
import proofs.«411576_j74998718922917_2_alg».proof.Proof.Gen.KernelIdeal.Frame
import Idealize.ShloMosaic.Lib.Pipeline.Value
import proofs.«411576_j74998718922917_2_alg».proof.Proof.BondSpec
import proofs.«411576_j74998718922917_2_alg».proof.Proof.BondBlock

set_option maxRecDepth 16384

noncomputable section

open Idealize.ShloMosaic Idealize.ShloMosaic.TcCoe Idealize.SL.Sem
open Idealize.ShloMosaic.Pipeline (Dat)

namespace Cert.KernelIdeal.BondArray

open Cert.KernelIdeal Cert.KernelIdeal.Gen Cert.KernelIdeal.BondBlock

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- At grid point `t` the two row-blocked inputs and the output sit at block row `t`; the weights and biases at block 0. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- The array entry that entry `j` of grid point `t`'s output block is. -/
abbrev outAt (t : Fin cfg2.N) (j : S8000x128.Idx) : S200000x128.Idx := ((cfg2.win 6).blk t).view.emb j

/-- The edge-feature block at an entry. -/
theorem edge_read (c : Dev nD) (t : Fin cfg2.N) (j : S8000x128.Idx) :
    (iblk2 V c 1 t : Vec Ideal S8000x128 .f32) j = (V c main_arg1 : Vec Ideal S200000x128 .f32) (outAt t j) := by
  obtain ⟨-, -, e2, e3, -, -, -, -, -, -, e10, e11⟩ := index_facts t
  show V c main_arg1 (((cfg2.win 1).blk t).view.emb j) = V c main_arg1 (((cfg2.win 6).blk t).view.emb j)
  refine congrArg (V c main_arg1) (funext fun a => Fin.ext ?_)
  match a with
  | ⟨0, _⟩ => show win2_1.index t (0 : Fin 2) * 8000 + 1 * (j 0).val = win2_6.index t (0 : Fin 2) * 8000 + 1 * (j 0).val; omega
  | ⟨1, _⟩ => show win2_1.index t (1 : Fin 2) * 128 + 1 * (j 1).val = win2_6.index t (1 : Fin 2) * 128 + 1 * (j 1).val; omega

/-- The block of summed triple terms at row r, channel k. -/
theorem sums_read (c : Dev nD) (t : Fin cfg2.N) (j : S8000x128.Idx) (k : Fin 9) :
    (iblk2 V c 0 t : Vec Ideal S8000x9 .f32) (rowAt j k) = (V c main_v18 : Vec Ideal S200000x9 .f32) (Cert.Bond.sumAt (outAt t j) k) := by
  obtain ⟨e0, e1, -, -, -, -, -, -, -, -, e10, e11⟩ := index_facts t
  show V c main_v18 (((cfg2.win 0).blk t).view.emb (rowAt j k)) = V c main_v18 (Cert.Bond.sumAt (((cfg2.win 6).blk t).view.emb j) k)
  refine congrArg (V c main_v18) (funext fun a => Fin.ext ?_)
  match a with
  | ⟨0, _⟩ => show win2_0.index t (0 : Fin 2) * 8000 + 1 * (j 0).val = win2_6.index t (0 : Fin 2) * 8000 + 1 * (j 0).val; omega
  | ⟨1, _⟩ => show win2_0.index t (1 : Fin 2) * 9 + 1 * k.val = k.val; omega

/-- The gate weight's block is the weight. -/
theorem wgate_read (c : Dev nD) (t : Fin cfg2.N) (j : S8000x128.Idx) (k : Fin 9) :
    (iblk2 V c 2 t : Vec Ideal S9x128 .f32) (weightAt j k) = (V c main_arg6 : Vec Ideal S9x128 .f32) (Cert.Bond.weightAt (outAt t j) k) := by
  obtain ⟨-, -, -, -, e4, e5, -, -, -, -, e10, e11⟩ := index_facts t
  show V c main_arg6 (((cfg2.win 2).blk t).view.emb (weightAt j k)) = V c main_arg6 (Cert.Bond.weightAt (((cfg2.win 6).blk t).view.emb j) k)
  refine congrArg (V c main_arg6) (funext fun a => Fin.ext ?_)
  match a with
  | ⟨0, _⟩ => show win2_2.index t (0 : Fin 2) * 9 + 1 * k.val = k.val; omega
  | ⟨1, _⟩ => show win2_2.index t (1 : Fin 2) * 128 + 1 * (j 1).val = win2_6.index t (1 : Fin 2) * 128 + 1 * (j 1).val; omega

/-- The sigmoid weight's block is the weight. -/
theorem wsig_read (c : Dev nD) (t : Fin cfg2.N) (j : S8000x128.Idx) (k : Fin 9) :
    (iblk2 V c 4 t : Vec Ideal S9x128 .f32) (weightAt j k) = (V c main_arg8 : Vec Ideal S9x128 .f32) (Cert.Bond.weightAt (outAt t j) k) := by
  obtain ⟨-, -, -, -, -, -, -, e7, e8, -, e10, e11⟩ := index_facts t
  show V c main_arg8 (((cfg2.win 4).blk t).view.emb (weightAt j k)) = V c main_arg8 (Cert.Bond.weightAt (((cfg2.win 6).blk t).view.emb j) k)
  refine congrArg (V c main_arg8) (funext fun a => Fin.ext ?_)
  match a with
  | ⟨0, _⟩ => show win2_4.index t (0 : Fin 2) * 9 + 1 * k.val = k.val; omega
  | ⟨1, _⟩ => show win2_4.index t (1 : Fin 2) * 128 + 1 * (j 1).val = win2_6.index t (1 : Fin 2) * 128 + 1 * (j 1).val; omega

/-- The gate bias's block is the bias. -/
theorem bgate_read (c : Dev nD) (t : Fin cfg2.N) (j : S8000x128.Idx) :
    (iblk2 V c 3 t : Vec Ideal S128 .f32) (biasAt j) = (V c main_arg7 : Vec Ideal S128 .f32) (Cert.Bond.biasAt (outAt t j)) := by
  obtain ⟨-, -, -, -, -, -, e6, -, -, -, e10, e11⟩ := index_facts t
  show V c main_arg7 (((cfg2.win 3).blk t).view.emb (biasAt j)) = V c main_arg7 (Cert.Bond.biasAt (((cfg2.win 6).blk t).view.emb j))
  refine congrArg (V c main_arg7) (funext fun a => Fin.ext ?_)
  match a with
  | ⟨0, _⟩ => show win2_3.index t (0 : Fin 1) * 128 + 1 * (j 1).val = win2_6.index t (1 : Fin 2) * 128 + 1 * (j 1).val; omega

/-- The sigmoid bias's block is the bias. -/
theorem bsig_read (c : Dev nD) (t : Fin cfg2.N) (j : S8000x128.Idx) :
    (iblk2 V c 5 t : Vec Ideal S128 .f32) (biasAt j) = (V c main_arg9 : Vec Ideal S128 .f32) (Cert.Bond.biasAt (outAt t j)) := by
  obtain ⟨-, -, -, -, -, -, -, -, -, e9, e10, e11⟩ := index_facts t
  show V c main_arg9 (((cfg2.win 5).blk t).view.emb (biasAt j)) = V c main_arg9 (Cert.Bond.biasAt (((cfg2.win 6).blk t).view.emb j))
  refine congrArg (V c main_arg9) (funext fun a => Fin.ext ?_)
  match a with
  | ⟨0, _⟩ => show win2_5.index t (0 : Fin 1) * 128 + 1 * (j 1).val = win2_6.index t (1 : Fin 2) * 128 + 1 * (j 1).val; omega

/-- The gate layer on grid point `t`'s blocks is the gate layer of the arrays at the block's array entry. -/
theorem gate_read (c : Dev nD) (t : Fin cfg2.N) (j : S8000x128.Idx) :
    blockLin (iblk2 V c 0 t) (iblk2 V c 2 t) (iblk2 V c 3 t) j
      = Cert.Bond.lin (V c main_v18) (V c main_arg6) (V c main_arg7) (outAt t j) := by
  unfold blockLin Cert.Bond.lin
  rw [bgate_read V c t j]
  refine congrArg (· + _) (Finset.sum_congr rfl fun k _ => ?_)
  rw [sums_read V c t j k, wgate_read V c t j k]

/-- The same for the sigmoid layer. -/
theorem sig_read (c : Dev nD) (t : Fin cfg2.N) (j : S8000x128.Idx) :
    blockLin (iblk2 V c 0 t) (iblk2 V c 4 t) (iblk2 V c 5 t) j
      = Cert.Bond.lin (V c main_v18) (V c main_arg8) (V c main_arg9) (outAt t j) := by
  unfold blockLin Cert.Bond.lin
  rw [bsig_read V c t j]
  refine congrArg (· + _) (Finset.sum_congr rfl fun k _ => ?_)
  rw [sums_read V c t j k, wsig_read V c t j k]

/-- What grid point `t` writes back is block `t` of the bond update of the arrays the region was entered with. -/
theorem flushed_eq (c : Dev nD) (t : Fin cfg2.N) :
    (dat2 V c).flushed 6 t
      = ((cfg2.win 6).blk t).view.read (Elt Ideal)
          (Cert.Bond.update (V c main_v18) (V c main_arg1) (V c main_arg6) (V c main_arg7) (V c main_arg8) (V c main_arg9)) := by
  show (cfg2.win 6).cut (grid2.coords t) ((dat2 V c).after 6 t) = _
  rw [after2_6]
  unfold out2_6
  rw [View.canon_unit_zero zero2]
  simp only [View.ld_unit_zero (S := S8000x9) zero2, View.ld_unit_zero (S := S9x128) zero2, View.ld_unit_zero (S := S128) zero1,
    View.ld_unit_zero (S := S8000x128) zero2]
  funext j
  show k2_pay1 (iblk2 V c 0 t) (iblk2 V c 2 t) (iblk2 V c 4 t) (iblk2 V c 3 t) (iblk2 V c 5 t) (iblk2 V c 1 t) j
      = Cert.Bond.update (V c main_v18) (V c main_arg1) (V c main_arg6) (V c main_arg7) (V c main_arg8) (V c main_arg9) (outAt t j)
  refine (stored_apply (iblk2 V c 0 t) (iblk2 V c 2 t) (iblk2 V c 4 t) (iblk2 V c 3 t) (iblk2 V c 5 t) (iblk2 V c 1 t) j).trans ?_
  rw [gate_read V c t j, sig_read V c t j, edge_read V c t j]
  rfl

/-- An index lies in grid point `t`'s block of the result when each coordinate is in the block's range. -/
theorem mem_blk (t : Fin cfg2.N) (i : S200000x128.Idx) :
    i ∈ ((cfg2.win 6).blk t).view.set ↔ ∀ a : Fin 2, win2_6.index t a * S8000x128.size a ≤ (i a).val ∧ (i a).val < win2_6.index t a * S8000x128.size a + S8000x128.size a := by
  show i ∈ ((View.whole main_v19).slice (win2_6.rect t)).set ↔ _
  rw [View.set_slice_whole, Rect.mem_set_unit]
  exact Iff.rfl

/-- Bond `e` is written by grid point `e / 8000`: the blocks cover the result, which ends at the bond update. -/
theorem array_eq (c : Dev nD) :
    (dat2 V c).arrAt 6 cfg2.N
      = Cert.Bond.update (V c main_v18) (V c main_arg1) (V c main_arg6) (V c main_arg7) (V c main_arg8) (V c main_arg9) :=
  (dat2 V c).arrAt_eq_of_cover 6 _ (fun t _ => flushed_eq V c t) fun i => by
    have hi0 : (i 0).val < 200000 := (i 0).isLt
    have hi1 : (i 1).val < 128 := (i 1).isLt
    have hN : cfg2.N = 25 := N_2
    have hlt : (i 0).val / 8000 < cfg2.N := by omega
    refine ⟨⟨(i 0).val / 8000, hlt⟩, flush2_6 _, ?_⟩
    rw [mem_blk]
    obtain ⟨-, -, -, -, -, -, -, -, -, -, e10, e11⟩ := index_facts ⟨(i 0).val / 8000, hlt⟩
    intro a
    match a with
    | ⟨0, _⟩ =>
      show win2_6.index ⟨(i 0).val / 8000, hlt⟩ (0 : Fin 2) * 8000 ≤ (i 0).val ∧ (i 0).val < win2_6.index ⟨(i 0).val / 8000, hlt⟩ (0 : Fin 2) * 8000 + 8000
      rw [e10]; show (i 0).val / 8000 * 8000 ≤ (i 0).val ∧ (i 0).val < (i 0).val / 8000 * 8000 + 8000; omega
    | ⟨1, _⟩ =>
      show win2_6.index ⟨(i 0).val / 8000, hlt⟩ (1 : Fin 2) * 128 ≤ (i 1).val ∧ (i 1).val < win2_6.index ⟨(i 0).val / 8000, hlt⟩ (1 : Fin 2) * 128 + 128
      rw [e11]; omega

end Cert.KernelIdeal.BondArray

end
-- ==== Proof.HostGlue.lean ====
/- The host operations between the three kernels, as functions of whole arrays: which atom each triple's second
   bond ends at (two index look-ups, a negative index counted from the end of its axis), the gather of the
   transformed atom rows at those atoms, and the segment sum of the triples' products into their bonds. Both
   programs run exactly these operations, so they are carried as they stand and never opened. -/
import proofs.«411576_j74998718922917_2_alg».proof.Proof.Gen.KernelIdeal

noncomputable section

namespace Cert.Glue

open Idealize.ShloMosaic Cert.KernelIdeal Cert.KernelIdeal.Gen

variable {F : FTy → Type} [FloatOps F]

/-- The second bond of each triple: `lg_dst`, a negative entry counted from the end of the 200000 bonds. -/
def secondBond (lgDst : (⟨S4000000, .i32⟩ : BufTy).Contents (Elt F)) : (⟨S4000000x1, .i32⟩ : BufTy).Contents (Elt F) :=
  broadcastInDim S4000000x1 ![0] bcast_S4000000_S4000000x1_0
    (select (cmpi .slt lgDst (broadcastInDim S4000000 ![] bcast_S_S4000000 (constantI S_ 32 0#32)))
      (addi lgDst (broadcastInDim S4000000 ![] bcast_S_S4000000 (constantI S_ 32 200000#32))) lgDst)

/-- The atom that bond points at: `graph_dst` looked up at the second bond. -/
def endAtomRaw (graphDst : (⟨S200000, .i32⟩ : BufTy).Contents (Elt F)) (lgDst : (⟨S4000000, .i32⟩ : BufTy).Contents (Elt F)) :
    (⟨S4000000, .i32⟩ : BufTy).Contents (Elt F) :=
  Host.gather gather_S200000_S4000000x1_S4000000_n_0_n_n_0_1_1 graphDst (secondBond (F := F) lgDst)

/-- The same, a negative entry counted from the end of the 5000 atoms, as a column of start indices. -/
def endAtom (graphDst : (⟨S200000, .i32⟩ : BufTy).Contents (Elt F)) (lgDst : (⟨S4000000, .i32⟩ : BufTy).Contents (Elt F)) :
    (⟨S4000000x1, .i32⟩ : BufTy).Contents (Elt F) :=
  broadcastInDim S4000000x1 ![0] bcast_S4000000_S4000000x1_0
    (select (cmpi .slt (endAtomRaw (F := F) graphDst lgDst) (broadcastInDim S4000000 ![] bcast_S_S4000000 (constantI S_ 32 0#32)))
      (addi (endAtomRaw (F := F) graphDst lgDst) (broadcastInDim S4000000 ![] bcast_S_S4000000 (constantI S_ 32 5000#32)))
      (endAtomRaw (F := F) graphDst lgDst))

/-- The transformed atom rows gathered at each triple's end atom. -/
def gathered (atoms : (⟨S5000x9, .f32⟩ : BufTy).Contents (Elt F)) (graphDst : (⟨S200000, .i32⟩ : BufTy).Contents (Elt F))
    (lgDst : (⟨S4000000, .i32⟩ : BufTy).Contents (Elt F)) : (⟨S4000000x9, .f32⟩ : BufTy).Contents (Elt F) :=
  Host.gather gather_S5000x9_S4000000x1_S4000000x9_1_0_n_n_0_1_19 atoms (endAtom (F := F) graphDst lgDst)

/-- The triples' rows summed into their bonds (a scatter-add into zeros at the segment ids). -/
def bondSums (rows : (⟨S4000000x9, .f32⟩ : BufTy).Contents (Elt F)) (segmentIds : (⟨S4000000, .i32⟩ : BufTy).Contents (Elt F)) :
    (⟨S200000x9, .f32⟩ : BufTy).Contents (Elt F) :=
  Host.scatterAdd scatter_S200000x9_S4000000x1_S4000000x9_1_0_0_1 (broadcastInDim S200000x9 ![] bcast_S_S200000x9 (constant S_ .f32 0x00000000#32))
    (broadcastInDim S4000000x1 ![0] bcast_S4000000_S4000000x1_0 segmentIds) rows

end Cert.Glue

end
-- ==== Proof.Stages.lean ====
/- The idealized kernel program's result as one term of the launch arrays. The buffer contents at the five segment
   boundaries of @main are a fold (region, host stretch, region, host stretch, region); here each buffer a later step
   reads is read back through that fold: the atom transform's result array, the gathered rows, the products, the
   segment sums, and the untouched arguments, down to the bond update of the launch arrays. -/
import proofs.«411576_j74998718922917_2_alg».proof.Proof.Gen.KernelIdeal.Frame
import Idealize.ShloMosaic.Lib.Pipeline.Value
import proofs.«411576_j74998718922917_2_alg».proof.Proof.AtomsArray
import proofs.«411576_j74998718922917_2_alg».proof.Proof.AtomsEntry
import proofs.«411576_j74998718922917_2_alg».proof.Proof.BasisProduct
import proofs.«411576_j74998718922917_2_alg».proof.Proof.BondArray
import proofs.«411576_j74998718922917_2_alg».proof.Proof.HostGlue
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Stages

open Cert.KernelIdeal Cert.KernelIdeal.Gen Idealize.ShloMosaic.StableHlo Cert.Glue

variable (m : (ℓ : Loc nD τ sig) → Buf (Elt Ideal) ℓ) (ρ : Dev nD → PrngReg)

/-- No operation of a host stretch writes the buffer. -/
macro "not_written" : tactic => `(tactic| (
  refine StableHlo.after_of_forall_not_mem _ _ (List.forall_iff_forall_mem.mp ?_)
  simp only [hostOps1, hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## After the atom transform -/

theorem atoms_out (c : Dev nD) :
    V1 m ρ c main_v0 = Cert.Atom.transform (m ((c : Thread nD τ).loc main_arg0)) (m ((c : Thread nD τ).loc main_arg4)) (m ((c : Thread nD τ).loc main_arg5)) :=
  (W1_arr m ρ c 3).trans ((Atoms.array_eq (V0 m ρ) c).trans (AtomsEntry.stored_eq _ _ _))

theorem graphDst_1 (c : Dev nD) : V1 m ρ c main_arg10 = m ((c : Thread nD τ).loc main_arg10) := W1_of_ne m ρ c main_arg10 (by decide)
theorem lgDst_1 (c : Dev nD) : V1 m ρ c main_arg12 = m ((c : Thread nD τ).loc main_arg12) := W1_of_ne m ρ c main_arg12 (by decide)

/-! ## At the multiply's entry -/

set_option maxHeartbeats 4000000 in
theorem gathered_in (c : Dev nD) :
    V2 m ρ c main_v14 = gathered (F := Ideal) (V1 m ρ c main_v0) (V1 m ρ c main_arg10) (V1 m ρ c main_arg12) := by
  show StableHlo.after hostOps1 (W1 m ρ c) (Proc.devRef .tc main_v14) = _
  after_results_simp
  rfl

theorem basis_in (c : Dev nD) : V2 m ρ c main_arg2 = m ((c : Thread nD τ).loc main_arg2) :=
  calc W2 m ρ c (Proc.devRef .tc main_arg2)
    _ = W1 m ρ c (Proc.devRef .tc main_arg2) := by not_written
    _ = W0 m ρ c (Proc.devRef .tc main_arg2) := W1_of_ne m ρ c main_arg2 (by decide)
    _ = m ((c : Thread nD τ).loc main_arg2) := rfl

/-! ## After the multiply -/

theorem products_out (c : Dev nD) :
    V3 m ρ c main_v15 = mulf (F := Ideal) (s := S4000000x9) (φ := .f32) (V2 m ρ c main_arg2) (V2 m ρ c main_v14) :=
  (W3_arr m ρ c 2).trans (Basis.array_eq (V2 m ρ) c)

theorem segmentIds_3 (c : Dev nD) : V3 m ρ c main_arg13 = m ((c : Thread nD τ).loc main_arg13) :=
  calc W3 m ρ c (Proc.devRef .tc main_arg13)
    _ = W2 m ρ c (Proc.devRef .tc main_arg13) := W3_of_ne m ρ c main_arg13 (by decide)
    _ = W1 m ρ c (Proc.devRef .tc main_arg13) := by not_written
    _ = W0 m ρ c (Proc.devRef .tc main_arg13) := W1_of_ne m ρ c main_arg13 (by decide)
    _ = m ((c : Thread nD τ).loc main_arg13) := rfl

/-! ## At the bond update's entry (an input window's array is left as the region found it) -/

theorem sums_in (c : Dev nD) :
    V4 m ρ c main_v18 = bondSums (F := Ideal) (V3 m ρ c main_v15) (V3 m ρ c main_arg13) := by
  show StableHlo.after hostOps2 (W3 m ρ c) (Proc.devRef .tc main_v18) = _
  after_results
  rfl

theorem edge_in (c : Dev nD) : V4 m ρ c main_arg1 = m ((c : Thread nD τ).loc main_arg1) :=
  ((W5_arr m ρ c 1).trans (((dat2 (V4 m ρ) c).arrAt_in 1 rfl _).trans (A_eq2 (V4 m ρ) c 1))).symm.trans (W5_main_arg1 m ρ c)
theorem wgate_in (c : Dev nD) : V4 m ρ c main_arg6 = m ((c : Thread nD τ).loc main_arg6) :=
  ((W5_arr m ρ c 2).trans (((dat2 (V4 m ρ) c).arrAt_in 2 rfl _).trans (A_eq2 (V4 m ρ) c 2))).symm.trans (W5_main_arg6 m ρ c)
theorem bgate_in (c : Dev nD) : V4 m ρ c main_arg7 = m ((c : Thread nD τ).loc main_arg7) :=
  ((W5_arr m ρ c 3).trans (((dat2 (V4 m ρ) c).arrAt_in 3 rfl _).trans (A_eq2 (V4 m ρ) c 3))).symm.trans (W5_main_arg7 m ρ c)
theorem wsig_in (c : Dev nD) : V4 m ρ c main_arg8 = m ((c : Thread nD τ).loc main_arg8) :=
  ((W5_arr m ρ c 4).trans (((dat2 (V4 m ρ) c).arrAt_in 4 rfl _).trans (A_eq2 (V4 m ρ) c 4))).symm.trans (W5_main_arg8 m ρ c)
theorem bsig_in (c : Dev nD) : V4 m ρ c main_arg9 = m ((c : Thread nD τ).loc main_arg9) :=
  ((W5_arr m ρ c 5).trans (((dat2 (V4 m ρ) c).arrAt_in 5 rfl _).trans (A_eq2 (V4 m ρ) c 5))).symm.trans (W5_main_arg9 m ρ c)

/-! ## The result -/

/-- The result as a term of the launch arrays: the bond update of the segment sums of (basis · gathered atom transform). -/
def result (c : Dev nD) : Buf (Elt Ideal) ((c : Thread nD τ).loc main_v19) :=
  Cert.Bond.update
    (bondSums (F := Ideal)
      (mulf (F := Ideal) (s := S4000000x9) (φ := .f32) (m ((c : Thread nD τ).loc main_arg2))
        (gathered (F := Ideal)
          (Cert.Atom.transform (m ((c : Thread nD τ).loc main_arg0)) (m ((c : Thread nD τ).loc main_arg4)) (m ((c : Thread nD τ).loc main_arg5)))
          (m ((c : Thread nD τ).loc main_arg10)) (m ((c : Thread nD τ).loc main_arg12))))
      (m ((c : Thread nD τ).loc main_arg13)))
    (m ((c : Thread nD τ).loc main_arg1)) (m ((c : Thread nD τ).loc main_arg6)) (m ((c : Thread nD τ).loc main_arg7))
    (m ((c : Thread nD τ).loc main_arg8)) (m ((c : Thread nD τ).loc main_arg9))

/-- The last boundary's contents at the result buffer are that term. -/
theorem result_eq (c : Dev nD) : W5 m ρ c (Proc.devRef .tc main_v19) = result m c := by
  refine (W5_arr m ρ c 6).trans ((BondArray.array_eq (V4 m ρ) c).trans ?_)
  rw [sums_in, products_out, segmentIds_3, basis_in, gathered_in, atoms_out, graphDst_1, lgDst_1,
    edge_in, wgate_in, bgate_in, wsig_in, bsig_in]
  rfl

end Cert.KernelIdeal.Stages

end
-- ==== Proof.RefSide.lean ====
/- The idealized reference's result as the same term of the argument arrays. Its run (generated) gives the result at
   the composed term of its host operations; read one operation at a time (generated) at an entry: the sigmoid it
   spells as 1 / (1 + exp (-x)) is the logistic, its dot products are the 128-term and nine-term sums, its bias
   broadcasts read the bias at the column; so its atom stage is the atom transform, and its last stages are the
   bond update of its segment sums. The index look-ups, the gather and the segment sum are the kernel program's
   own operations. -/
import proofs.«411576_j74998718922917_2_alg».proof.Proof.Gen.ReferenceIdeal.Run
import proofs.«411576_j74998718922917_2_alg».proof.Proof.Gen.ReferenceIdeal.Read
import proofs.«411576_j74998718922917_2_alg».proof.Proof.BondSpec
import proofs.«411576_j74998718922917_2_alg».proof.Proof.AtomSpec
import proofs.«411576_j74998718922917_2_alg».proof.Proof.HostGlue

set_option maxRecDepth 16384

noncomputable section

open Idealize.ShloMosaic Idealize.ShloMosaic.TcCoe Idealize.SL.Sem

namespace Cert.ReferenceIdeal.RefValue

open Cert.ReferenceIdeal Cert.ReferenceIdeal.Gen Cert.ReferenceIdeal.Read

/-! ## The atom stage -/

theorem feat_idx (i : S5000x9.Idx) (k : Fin 128) : lidx_main_v0 i k = Cert.Atom.featAt i k :=
  funext fun a => by match a with | ⟨0, _⟩ => rfl | ⟨1, _⟩ => rfl
theorem weight_idx (i : S5000x9.Idx) (k : Fin 128) : ridx_main_v0 i k = Cert.Atom.weightAt i k :=
  funext fun a => by match a with | ⟨0, _⟩ => rfl | ⟨1, _⟩ => rfl
theorem bias_idx (i : S5000x9.Idx) : idx_main_v1 (idx_main_v2 i) = Cert.Atom.biasAt i :=
  funext fun a => by match a with | ⟨0, _⟩ => rfl

/-- The reference's sigmoid of (features · weight + bias) is the atom transform. -/
theorem atoms_eq (x0 : (⟨S5000x128, .f32⟩ : BufTy).Contents (Elt Ideal)) (x4 : (⟨S128x9, .f32⟩ : BufTy).Contents (Elt Ideal))
    (x5 : (⟨S9, .f32⟩ : BufTy).Contents (Elt Ideal)) :
    val_main_v9 (F := Ideal) x0 x4 x5 = Cert.Atom.transform x0 x4 x5 := by
  funext i
  rw [val_main_v9_apply, val_main_v8_apply, val_main_cst_0_apply, val_main_v7_apply, val_main_v6_apply, val_main_cst_apply,
    val_main_v5_apply, val_main_v4_apply, val_main_v3_apply, val_main_v0_apply, val_main_v2_apply, val_main_v1_apply]
  simp only [Ideal.addf_def, Ideal.hostDivf_def, Ideal.hostUnary_exp_def, Ideal.hostNegf_def, Ideal.negf_def, Ideal.ofBits_def,
    Cert.Bond.one_f32, feat_idx, weight_idx, bias_idx]
  rfl

/-! ## The last stages -/

theorem sum_idx (i : S200000x128.Idx) (k : Fin 9) : lidx_main_v46 i k = Cert.Bond.sumAt i k :=
  funext fun a => by match a with | ⟨0, _⟩ => rfl | ⟨1, _⟩ => rfl
theorem wgate_idx (i : S200000x128.Idx) (k : Fin 9) : ridx_main_v46 i k = Cert.Bond.weightAt i k :=
  funext fun a => by match a with | ⟨0, _⟩ => rfl | ⟨1, _⟩ => rfl
theorem bgate_idx (i : S200000x128.Idx) : idx_main_v47 (idx_main_v48 i) = Cert.Bond.biasAt i :=
  funext fun a => by match a with | ⟨0, _⟩ => rfl
theorem sum_idx' (i : S200000x128.Idx) (k : Fin 9) : lidx_main_v51 i k = Cert.Bond.sumAt i k :=
  funext fun a => by match a with | ⟨0, _⟩ => rfl | ⟨1, _⟩ => rfl
theorem wsig_idx (i : S200000x128.Idx) (k : Fin 9) : ridx_main_v51 i k = Cert.Bond.weightAt i k :=
  funext fun a => by match a with | ⟨0, _⟩ => rfl | ⟨1, _⟩ => rfl
theorem bsig_idx (i : S200000x128.Idx) : idx_main_v52 (idx_main_v53 i) = Cert.Bond.biasAt i :=
  funext fun a => by match a with | ⟨0, _⟩ => rfl

section
variable (x0 : (⟨S5000x128, .f32⟩ : BufTy).Contents (Elt Ideal)) (x1 : (⟨S200000x128, .f32⟩ : BufTy).Contents (Elt Ideal))
  (x2 : (⟨S4000000x9, .f32⟩ : BufTy).Contents (Elt Ideal)) (x4 : (⟨S128x9, .f32⟩ : BufTy).Contents (Elt Ideal))
  (x5 : (⟨S9, .f32⟩ : BufTy).Contents (Elt Ideal)) (x6 : (⟨S9x128, .f32⟩ : BufTy).Contents (Elt Ideal))
  (x7 : (⟨S128, .f32⟩ : BufTy).Contents (Elt Ideal)) (x8 : (⟨S9x128, .f32⟩ : BufTy).Contents (Elt Ideal))
  (x9 : (⟨S128, .f32⟩ : BufTy).Contents (Elt Ideal)) (x10 : (⟨S200000, .i32⟩ : BufTy).Contents (Elt Ideal))
  (x12 x13 : (⟨S4000000, .i32⟩ : BufTy).Contents (Elt Ideal))

/-- The gate layer of the reference at an entry. -/
theorem gate_eq (i : S200000x128.Idx) :
    val_main_v49 (F := Ideal) x0 x2 x4 x5 x6 x7 x10 x12 x13 i = Cert.Bond.lin (val_main_v45 (F := Ideal) x0 x2 x4 x5 x10 x12 x13) x6 x7 i := by
  rw [val_main_v49_apply, val_main_v46_apply, val_main_v48_apply, val_main_v47_apply]
  simp only [Ideal.addf_def, sum_idx, wgate_idx, bgate_idx]
  rfl

/-- The sigmoid layer of the reference at an entry. -/
theorem sig_eq (i : S200000x128.Idx) :
    val_main_v54 (F := Ideal) x0 x2 x4 x5 x8 x9 x10 x12 x13 i = Cert.Bond.lin (val_main_v45 (F := Ideal) x0 x2 x4 x5 x10 x12 x13) x8 x9 i := by
  rw [val_main_v54_apply, val_main_v51_apply, val_main_v53_apply, val_main_v52_apply]
  simp only [Ideal.addf_def, sum_idx', wsig_idx, bsig_idx]
  rfl

/-- The reference's last stages are the bond update of its segment sums. -/
theorem update_eq :
    val_main_v62 (F := Ideal) x0 x1 x2 x4 x5 x6 x7 x8 x9 x10 x12 x13
      = Cert.Bond.update (val_main_v45 (F := Ideal) x0 x2 x4 x5 x10 x12 x13) x1 x6 x7 x8 x9 := by
  funext i
  rw [val_main_v62_apply, val_main_v61_apply, val_main_v50_apply, val_main_call0_v5_apply, val_main_call0_v4_apply,
    val_main_call0_cst_0_apply, val_main_call0_v3_apply, val_main_call0_v2_apply, val_main_call0_cst_apply, val_main_call0_v1_apply,
    val_main_call0_v0_apply, val_main_v60_apply, val_main_v59_apply, val_main_cst_10_apply, val_main_v58_apply, val_main_v57_apply,
    val_main_cst_9_apply, val_main_v56_apply, val_main_v55_apply, gate_eq, sig_eq]
  simp only [Ideal.addf_def, Ideal.mulf_def, Ideal.hostDivf_def, Ideal.hostUnary_exp_def, Ideal.hostNegf_def, Ideal.negf_def,
    Ideal.ofBits_def, Cert.Bond.one_f32]
  rfl

/-- The reference's segment sums are the kernel program's own glue applied to the atom transform. -/
theorem sums_eq :
    val_main_v45 (F := Ideal) x0 x2 x4 x5 x10 x12 x13
      = Cert.Glue.bondSums (F := Ideal) (mulf (F := Ideal) (s := S4000000x9) (φ := .f32) x2 (Cert.Glue.gathered (F := Ideal) (Cert.Atom.transform x0 x4 x5) x10 x12)) x13 := by
  unfold val_main_v45 val_main_v24 val_main_v23
  rw [atoms_eq]
  rfl

end

end Cert.ReferenceIdeal.RefValue

end
-- ==== Proof.lean ====
/- The claim: the kernel program (three TensorCore kernels with host index look-ups, a gather and a segment sum between
   them) against the reference program, over the extended reals.
   Both programs compute, for bond e and channel j,
     out[e, j] = edge[e, j] + (g · logistic g) · logistic s,
       g = Σ_k nb[e, k] · W_gate[k, j] + b_gate[j],   s = Σ_k nb[e, k] · W_sig[k, j] + b_sig[j],
       nb = the segment sum over the triples of  three_basis[t, ·] · atoms[graph_dst[lg_dst[t]], ·],
       atoms[a, c] = logistic (Σ_d node[a, d] · W_atom[d, c] + b_atom[c]).
   The kernels' bf16 narrowing of the matrix unit's operands is the identity on the extended reals, a product into
   a zero accumulator is the plain finite sum the host's dot_general is, the kernels' logistic is by definition the
   1 / (1 + exp (-x)) the reference spells, and the tilings (one block; 500 blocks of 8000 triples; 25 blocks of
   8000 bonds) cover their arrays. The index look-ups, the gather and the segment sum are the same operations in
   both programs and are never opened. No law that needs finiteness is used, so the precondition is not opened.
   The three frames are the generated ones (the reference's is its run with the result dropped); no rewrite was
   applied by the idealization, so there is nothing to preserve. -/
import proofs.«411576_j74998718922917_2_alg».proof.Defs
import proofs.«411576_j74998718922917_2_alg».proof.Proof.Gen.Kernel
import proofs.«411576_j74998718922917_2_alg».proof.Proof.Gen.Kernel.Skeleton
import proofs.«411576_j74998718922917_2_alg».proof.Proof.Gen.Kernel.Launch
import proofs.«411576_j74998718922917_2_alg».proof.Proof.Gen.Kernel.Points
import proofs.«411576_j74998718922917_2_alg».proof.Proof.Gen.Kernel.Frame
import proofs.«411576_j74998718922917_2_alg».proof.Proof.Gen.KernelIdeal
import proofs.«411576_j74998718922917_2_alg».proof.Proof.Gen.KernelIdeal.Skeleton
import proofs.«411576_j74998718922917_2_alg».proof.Proof.Gen.KernelIdeal.Launch
import proofs.«411576_j74998718922917_2_alg».proof.Proof.Gen.KernelIdeal.Points
import proofs.«411576_j74998718922917_2_alg».proof.Proof.Gen.KernelIdeal.Frame
import proofs.«411576_j74998718922917_2_alg».proof.Proof.Gen.ReferenceIdeal
import proofs.«411576_j74998718922917_2_alg».proof.Proof.Gen.ReferenceIdeal.Run
import proofs.«411576_j74998718922917_2_alg».proof.Proof.Gen.ReferenceIdeal.Read
import proofs.«411576_j74998718922917_2_alg».proof.Proof.Gen.Pre_finite_inputs
import proofs.«411576_j74998718922917_2_alg».proof.Proof.KernelRun
import proofs.«411576_j74998718922917_2_alg».proof.Proof.Stages
import proofs.«411576_j74998718922917_2_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the bond update of the segment sums of (basis · gathered atom transform) of
    their arguments, which agree. -/
theorem algebraic : Cert.algebraic_KernelIdeal_ReferenceIdeal := by
  intro m ρ m' ρ' _ hagree
  refine ⟨fun c => Cert.KernelIdeal.Stages.result m c, ?_, ?_⟩
  · exact (θ_run Cert.KernelIdeal.defs _ _).mono
      (fun r h c => ⟨(h c).1.trans (Cert.KernelIdeal.Stages.result_eq m ρ c), (h c).2⟩)
      (Cert.KernelIdeal.RunV.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v62_eq, Cert.ReferenceIdeal.RefValue.update_eq, Cert.ReferenceIdeal.RefValue.sums_eq]
    obtain ⟨a0, a1, a2, a3, a4, a5, a6, a7, a8, a9, a10, a11, a12, a13⟩ := hagree c
    rw [a0, a1, a2, a4, a5, a6, a7, a8, a9, a10, a12, a13]
    rfl

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
